-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x3200000 : Shape := ⟨2, ![2, 3200000]⟩
abbrev S3x16 : Shape := ⟨2, ![3, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x16 : S_.BroadcastsInDim S3x16 (![] : Fin 0 → Fin S3x16.rank)
  reducesTo_S3x16_S_d0_1 : S3x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x3 .f32) (main_arg1 : IVec S2x3200000 32) (main_arg2 : FVec F S3x16 .f32) (main_arg3 : FVec F S16 .f32) (main_arg4 : FVec F S16x7 .f32) (main_arg5 : FVec F S7 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x16 .f32 := Host.absf main_arg2
  let main_cst_0 : FVec F S_ .f32 := constant S_ .f32 0x7F800000#32
  let main_v5 : FVec F S3x16 .f32 := broadcastInDim S3x16 ![] bcast_S_S3x16 main_cst_0
  let main_v6 : IVec S3x16 1 := cmpf .olt main_v4 main_v5
  let main_c_1 : IVec S_ 1 := constantI S_ 1 1#1
  let main_v7 : IVec S_ 1 := (fun x v => Host.reduce IntOp.andi x v reducesTo_S3x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg4
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg5 main_v13 main_v16
-- ==== Kernel.lean ====
abbrev S100000x3 : Shape := ⟨2, ![100000, 3]⟩
abbrev S2x3200000 : Shape := ⟨2, ![2, 3200000]⟩
abbrev S3x16 : Shape := ⟨2, ![3, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S25000x3 : Shape := ⟨2, ![25000, 3]⟩
abbrev S25000x16 : Shape := ⟨2, ![25000, 16]⟩
abbrev S3300000x16 : Shape := ⟨2, ![3300000, 16]⟩
abbrev S1x16 : Shape := ⟨2, ![1, 16]⟩
abbrev S100000x7 : Shape := ⟨2, ![100000, 7]⟩
abbrev S25000x7 : Shape := ⟨2, ![25000, 7]⟩
abbrev S3300000x7 : Shape := ⟨2, ![3300000, 7]⟩
abbrev S1x7 : Shape := ⟨2, ![1, 7]⟩
abbrev S25000 : Shape := ⟨1, ![25000]⟩
abbrev S25000x1 : Shape := ⟨2, ![25000, 1]⟩

abbrev nBuf : Space → Nat
  | .hbm => 86
  | .vmem => 16
  | .smem => 0
  | _ => 0

abbrev bufTy : (tb : Table) → Fin (tcTables nBuf tb) → BufTy
  | .hbm, ⟨0, _⟩ => ⟨S100000x3, .f32⟩
  | .hbm, ⟨1, _⟩ => ⟨S2x3200000, .i32⟩
  | .hbm, ⟨2, _⟩ => ⟨S3x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x7, .f32⟩
  | .hbm, ⟨68, _⟩ => ⟨S_, .i32⟩
  | .hbm, ⟨69, _⟩ => ⟨S3300000, .i32⟩
  | .hbm, ⟨70, _⟩ => ⟨S3300000, .i1⟩
  | .hbm, ⟨71, _⟩ => ⟨S_, .i32⟩
  | .hbm, ⟨72, _⟩ => ⟨S3300000, .i32⟩
  | .hbm, ⟨73, _⟩ => ⟨S3300000, .i32⟩
  | .hbm, ⟨74, _⟩ => ⟨S3300000, .i32⟩
  | .hbm, ⟨75, _⟩ => ⟨S3300000x1, .i32⟩
  | .hbm, ⟨76, _⟩ => ⟨S3300000x7, .f32⟩
  | .hbm, ⟨77, _⟩ => ⟨S3300000x1, .f32⟩
  | .hbm, ⟨78, _⟩ => ⟨S3300000x7, .f32⟩
  | .hbm, ⟨79, _⟩ => ⟨S3300000x7, .f32⟩
  | .hbm, ⟨80, _⟩ => ⟨S_, .f32⟩
  | .hbm, ⟨81, _⟩ => ⟨S100000x7, .f32⟩
  | .hbm, ⟨82, _⟩ => ⟨S3300000x1, .i32⟩
  | .hbm, ⟨83, _⟩ => ⟨S100000x7, .f32⟩
  | .hbm, ⟨84, _⟩ => ⟨S1x7, .f32⟩
  | .hbm, ⟨85, _⟩ => ⟨S100000x7, .f32⟩
  | .local _ .vmem, ⟨0, _⟩ => ⟨S25000x3, .f32⟩
  | .local _ .vmem, ⟨1, _⟩ => ⟨S25000x3, .f32⟩
  | .local _ .vmem, ⟨2, _⟩ => ⟨S3x16, .f32⟩
  | .local _ .vmem, ⟨3, _⟩ => ⟨S25000x16, .f32⟩
  | .local _ .vmem, ⟨4, _⟩ => ⟨S25000x16, .f32⟩
  | .local _ .vmem, ⟨5, _⟩ => ⟨S25000x16, .f32⟩
  | .local _ .vmem, ⟨6, _⟩ => ⟨S25000x16, .f32⟩
  | .local _ .vmem, ⟨7, _⟩ => ⟨S1x16, .f32⟩
  | .local _ .vmem, ⟨8, _⟩ => ⟨S16x7, .f32⟩
  | .local _ .vmem, ⟨9, _⟩ => ⟨S25000x7, .f32⟩
  | .local _ .vmem, ⟨10, _⟩ => ⟨S25000x7, .f32⟩
  | .local _ .vmem, ⟨11, _⟩ => ⟨S25000x7, .f32⟩
  | .local _ .vmem, ⟨12, _⟩ => ⟨S25000x7, .f32⟩
  | .local _ .vmem, ⟨13, _⟩ => ⟨S1x7, .f32⟩
  | .local _ .vmem, ⟨14, _⟩ => ⟨S25000x7, .f32⟩
  | .local _ .vmem, ⟨15, _⟩ => ⟨S25000x7, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S25000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S25000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S25000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x7 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S25000x7 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S25000x7 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x7 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S25000x7 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S25000x3_S25000x3_0_0 : ∀ a, (![0, 0] : Fin 2 → Nat) a + S25000x3.size a ≤ S25000x3.size a
  h_S25000x3 : 0 < S25000x3.numel
  inb_S3x16_S3x16_0_0 : ∀ a, (![0, 0] : Fin 2 → Nat) a + S3x16.size a ≤ S3x16.size a
  h_S3x16 : 0 < S3x16.numel
  inb_S25000x16_S25000x16_0_0 : ∀ a, (![0, 0] : Fin 2 → Nat) a + S25000x16.size a ≤ S25000x16.size a
  h_S25000x16 : 0 < S25000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S25000x16_S25000x16 : S25000x16.ShapeCasts S25000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S25000x16 : S1x16.Broadcasts S25000x16
  inb_S16x7_S16x7_0_0 : ∀ a, (![0, 0] : Fin 2 → Nat) a + S16x7.size a ≤ S16x7.size a
  h_S16x7 : 0 < S16x7.numel
  inb_S25000x7_S25000x7_0_0 : ∀ a, (![0, 0] : Fin 2 → Nat) a + S25000x7.size a ≤ S25000x7.size a
  h_S25000x7 : 0 < S25000x7.numel
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  shapeCasts_S7_S1x7 : S7.ShapeCasts S1x7
  shapeCasts_S25000x7_S25000x7 : S25000x7.ShapeCasts S25000x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S25000x7 : S1x7.Broadcasts S25000x7
  reduces_S25000x7_S25000 : S25000x7.Reduces [1] S25000
  shapeCasts_S25000_S25000x1 : S25000.ShapeCasts S25000x1
  broadcasts_S25000x1_S25000x7 : S25000x1.Broadcasts S25000x7
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S25000x3_S3x16_S25000x16_1_0_0_1_n_n_wf : DotDims.WF S25000x3 S3x16 S25000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S25000x16_S16x7_S25000x7_1_0_0_1_n_n_wf : DotDims.WF S25000x16 S16x7 S25000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S25000x3.size a ≤ S100000x3.size a
  hwx0_0 : ∀ i : grid0.Coords, EltTy.bits .f32 = 32 ∨ (Rect.block (s := S100000x3) S25000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x16.size a ≤ S3x16.size a
  hwx0_1 : ∀ i : grid0.Coords, EltTy.bits .f32 = 32 ∨ (Rect.block (s := S3x16) S3x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S25000x16.size a ≤ S100000x16.size a
  hwx0_2 : ∀ i : grid0.Coords, EltTy.bits .f32 = 32 ∨ (Rect.block (s := S100000x16) S25000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S25000x16.size a ≤ S100000x16.size a
  hwx1_0 : ∀ i : grid1.Coords, EltTy.bits .f32 = 32 ∨ (Rect.block (s := S100000x16) S25000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x7.size a ≤ S16x7.size a
  hwx1_2 : ∀ i : grid1.Coords, EltTy.bits .f32 = 32 ∨ (Rect.block (s := S16x7) S16x7.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S25000x7.size a ≤ S100000x7.size a
  hwx1_3 : ∀ i : grid1.Coords, EltTy.bits .f32 = 32 ∨ (Rect.block (s := S100000x7) S25000x7.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S25000x7.size a ≤ S100000x7.size a
  hwx2_0 : ∀ i : grid2.Coords, EltTy.bits .f32 = 32 ∨ (Rect.block (s := S100000x7) S25000x7.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x7.size a ≤ S1x7.size a
  hwx2_1 : ∀ i : grid2.Coords, EltTy.bits .f32 = 32 ∨ (Rect.block (s := S1x7) S1x7.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S25000x7.size a ≤ S100000x7.size a
  hwx2_2 : ∀ i : grid2.Coords, EltTy.bits .f32 = 32 ∨ (Rect.block (s := S100000x7) S25000x7.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S25000x3_S3x16_S25000x16_1_0_0_1_n_n : DotDims S25000x3 S3x16 S25000x16 where
  lhsContracting := [1]
  rhsContracting := [0]
  lhsNonContracting := [0]
  rhsNonContracting := [1]
  lhsBatch := []
  rhsBatch := []
  wf := dot_S25000x3_S3x16_S25000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S25000x16_S16x7_S25000x7_1_0_0_1_n_n : DotDims S25000x16 S16x7 S25000x7 where
  lhsContracting := [1]
  rhsContracting := [0]
  lhsNonContracting := [0]
  rhsNonContracting := [1]
  lhsBatch := []
  rhsBatch := []
  wf := dot_S25000x16_S16x7_S25000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S25000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S25000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S25000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x7.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S25000x7.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S25000x7.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x7.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S25000x7.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x3 : Shape := ⟨2, ![100000, 3]⟩
abbrev S2x3200000 : Shape := ⟨2, ![2, 3200000]⟩
abbrev S3x16 : Shape := ⟨2, ![3, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x7 : Shape := ⟨2, ![100000, 7]⟩
abbrev S3300000x7 : Shape := ⟨2, ![3300000, 7]⟩
abbrev S1x7 : Shape := ⟨2, ![1, 7]⟩
abbrev S100000x1 : Shape := ⟨2, ![100000, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S2x3200000, .i32⟩
  | .hbm, ⟨2, _⟩ => ⟨S3x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x7, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000x7, .f32⟩
  | .hbm, ⟨82, _⟩ => ⟨S3300000x1, .f32⟩
  | .hbm, ⟨83, _⟩ => ⟨S3300000x7, .f32⟩
  | .hbm, ⟨84, _⟩ => ⟨S3300000x7, .f32⟩
  | .hbm, ⟨85, _⟩ => ⟨S_, .f32⟩
  | .hbm, ⟨86, _⟩ => ⟨S100000x7, .f32⟩
  | .hbm, ⟨87, _⟩ => ⟨S3300000x1, .i32⟩
  | .hbm, ⟨88, _⟩ => ⟨S100000x7, .f32⟩
  | .hbm, ⟨89, _⟩ => ⟨S1x7, .f32⟩
  | .hbm, ⟨90, _⟩ => ⟨S100000x7, .f32⟩
  | .hbm, ⟨91, _⟩ => ⟨S100000x7, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x7, .f32⟩
  | .hbm, ⟨99, _⟩ => ⟨S100000x7, .f32⟩
  | .hbm, ⟨100, _⟩ => ⟨S100000x7, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x7, .f32⟩
  | .hbm, ⟨106, _⟩ => ⟨S100000x7, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x3_S3x16_S100000x16_1_0_0_1_n_n_wf : DotDims.WF S100000x3 S3x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x7_S100000x7_1_0_0_1_n_n_wf : DotDims.WF S100000x16 S16x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x3_S3x16_S100000x16_1_0_0_1_n_n : DotDims S100000x3 S3x16 S100000x16 where
  lhsContracting := [1]
  rhsContracting := [0]
  lhsNonContracting := [0]
  rhsNonContracting := [1]
  lhsBatch := []
  rhsBatch := []
  wf := dot_S100000x3_S3x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.LibDense.lean ====
/-
  One dense layer of a multilayer perceptron, read one row at a time over the extended reals.

  A layer maps a row  v  of K numbers to the row  y_c = (Σ_k v_k · W_{k,c}) + b_c  of C numbers (`affine`), optionally
  followed by the rectifier  max(·, 0)  (`relu`). A product of an [R, K] array with a [K, C] array whose dimension
  numbers contract the left operand's axis 1 with the right operand's axis 0 (no batch axes) is, at the entry (r, c),
  the sum over k of  lhs(r, k) · rhs(k, c) : this holds for the matrix unit's product into a zero accumulator and for the
  host's general product alike (`matmul_zero_plain_apply`, `dotGeneral_plain_apply`), because both are the same sum over
  the one-axis contraction index, re-indexed here by its one coordinate (`contr_sum`). So a whole layer as either
  program spells it — the product, the bias row added to every row, the maximum with zero — is `relu (affine W b row)`
  at every entry (`kernel_affine_apply` then `kernel_relu_apply`; `host_affine_apply` then `host_relu_apply`), whatever the number of rows: a layer acts on each row by
  itself.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- The affine map of one row:  y_c = (Σ_k v_k · W_{k,c}) + b_c . -/
def affine {K C : ℕ} (W : FVec Ideal ⟨2, ![K, C]⟩ .f32) (b : FVec Ideal ⟨1, ![C]⟩ .f32) (v : Fin K → EReal) :
    Fin C → EReal :=
  fun c => (∑ k : Fin K, v k * W (ix2 k c)) + b (ix1 c)

/-- The rectifier on a row:  max(y_c, 0) . -/
def relu {C : ℕ} (v : Fin C → EReal) : Fin C → EReal := fun c => max (v c) 0

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- With no batch axes and the left operand's axis 0 its only free axis, the left index's row is the result's row. -/
private theorem lhsIdx_row {R K C : ℕ} (d : DotDims ⟨2, ![R, K]⟩ ⟨2, ![K, C]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- With no batch axes, one free axis on the left and the right operand's axis 1 its only free axis, the right index's
    column is the result's column. -/
private theorem rhsIdx_col {R K C : ℕ} (d : DotDims ⟨2, ![R, K]⟩ ⟨2, ![K, C]⟩ ⟨2, ![R, C]⟩)
    (h3 : d.lhsNonContracting = [0]) (h4 : d.rhsNonContracting = [1]) (h5 : d.lhsBatch = []) (h6 : d.rhsBatch = [])
    (j : (⟨2, ![R, C]⟩ : Shape).Idx) (k : d.contr.Idx) : (d.rhsIdx j k 1).val = (j 1).val := by
  have hb : (1 : Fin 2) ∉ d.rhsBatch := by rw [h6]; exact List.not_mem_nil
  have hn : (1 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over a one-axis contraction index of a plain [R,K] × [K,C] product, as the sum over k of
    lhs(r, k) · rhs(k, c). -/
theorem contr_sum {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (lhs : (⟨2, ![R, K]⟩ : Shape).Idx → EReal) (rhs : (⟨2, ![K, C]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 k c) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k): its row from the result, its column from the contraction
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  -- the right operand is read at (k, c): its row from the contraction, its column from the result
  have er : d.rhsIdx (ix2 r c) ((contrEquiv1 d K hr hs).symm k) = ix2 k c := by
    funext a
    match a with
    | ⟨0, _⟩ => exact Fin.ext ((d.rhsIdx_val_of_single h2 (ix2 r c) _).trans hk)
    | ⟨1, _⟩ => exact Fin.ext (rhsIdx_col d h3 h4 h5 h6 (ix2 r c) _)
  rw [el, er]

/-- The matrix unit's product into a zero accumulator, at (r, c). -/
theorem matmul_zero_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    matmul d prec lhs rhs (constant ⟨2, ![R, C]⟩ .f32 0x00000000#32) (ix2 r c)
      = ∑ k : Fin K, lhs (ix2 r k) * rhs (ix2 k c) := by
  -- the product into zeros is the sum over the contraction index, which is the sum over k
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    Host.dotGeneral d prec lhs rhs (ix2 r c) = ∑ k : Fin K, lhs (ix2 r k) * rhs (ix2 k c) := by
  -- the general product is the same sum over the contraction index
  simp only [Host.dotGeneral]
  rw [Ideal.dotGeneral_apply]
  exact contr_sum d h1 h2 h3 h4 h5 h6 lhs rhs r c

/-- A [C] row viewed as a [1, C] array and stretched over R rows reads, at (r, c), the row's entry c. -/
private theorem bias_keepdims_apply {R C : ℕ} {α : Type}
    (hsc : (⟨1, ![C]⟩ : Shape).ShapeCasts ⟨2, ![1, C]⟩) (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) := by
  -- the stretch reads the [1, C] array at (0, c); when C = 1 the column c is itself 0
  refine (broadcastTo_apply _ hbc (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the added unit axis reads the row at its trailing coordinate
  · refine (shapeCast_addUnit_apply ![C] b hsc (ix2 (0 : Fin 1) c)).trans ?_
    exact congrArg b (funext fun a => match a with | ⟨0, _⟩ => rfl)

/-- A layer before its rectifier as the kernel spells it — both operands narrowed to bf16 (the identity on the
    extended reals), the product into zeros, the bias as a [1, C] row stretched over the R rows and added — at (r, c). -/
theorem kernel_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    addf (matmul d none (truncf .bf16 X hlt) (truncf .bf16 W hlt) (constant ⟨2, ![R, C]⟩ .f32 0x00000000#32))
        (broadcastTo ⟨2, ![R, C]⟩ (shapeCast ⟨2, ![1, C]⟩ b hsc) hbc) (ix2 r c)
      = affine W b (fun k => X (ix2 r k)) c := by
  -- the sum at (r, c) plus the bias entry c; narrowing to bf16 is the identity on the extended reals
  rw [addf_apply, matmul_zero_plain_apply d h1 h2 h3 h4 h5 h6, bias_keepdims_apply hsc hbc b r c]
  rfl

/-- The kernel's rectifier — the maximum with a splat of the zero word — at an index. -/
theorem kernel_relu_apply {s : Shape} (v : FVec Ideal s .f32) (i : s.Idx) :
    maximumf v (broadcast s (Scalar.ofBits (F := Ideal) .f32 0x00000000#32)) i = max (v i) 0 := by
  -- the splat reads the zero word everywhere, and the zero word is the number 0
  rw [maximumf_apply, broadcast_apply]
  show max (v i) (Ideal.ofBits .f32 0x00000000#32) = _
  rw [Ideal.ofBits_zero_f32]

/-- A [C] row laid out as a [1, C] array on its axis 1 and then over R rows on both axes reads, at (r, c), the row's
    entry c. -/
private theorem bias_inDim_apply {R C : ℕ} {α : Type}
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) := by
  -- the outer layout reads the [1, C] array at (0, c); when C = 1 the column c is itself 0
  refine (broadcastInDim_apply ![0, 1] hb2 _ (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the inner layout reads the row at the [1, C] array's coordinate on axis 1
  · refine broadcastInDim_apply ![1] hb1 b (ix2 (0 : Fin 1) c) (ix1 c) fun a => ?_
    match a with
    | ⟨0, _⟩ =>
      show c.val = if C = 1 then 0 else c.val
      split
      · have := c.isLt; omega
      · rfl

/-- A layer before its rectifier as the host spells it — the general product, the bias laid out as a [1, C] row and
    then over the R rows, added — at (r, c). -/
theorem host_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (X : FVec Ideal ⟨2, ![R, K]⟩ .f32) (W : FVec Ideal ⟨2, ![K, C]⟩ .f32) (b : FVec Ideal ⟨1, ![C]⟩ .f32)
    (r : Fin R) (c : Fin C) :
    addf (Host.dotGeneral d none X W)
        (broadcastInDim ⟨2, ![R, C]⟩ ![0, 1] hb2 (broadcastInDim ⟨2, ![1, C]⟩ ![1] hb1 b)) (ix2 r c)
      = affine W b (fun k => X (ix2 r k)) c := by
  -- the sum at (r, c) plus the bias entry c
  rw [addf_apply, dotGeneral_plain_apply d h1 h2 h3 h4 h5 h6, bias_inDim_apply hb1 hb2 b r c]
  rfl

/-- The host's rectifier — the maximum with the zero scalar laid out over the array — at an index. -/
theorem host_relu_apply {s : Shape} (hb0 : (⟨0, ![]⟩ : Shape).BroadcastsInDim s (![] : Fin 0 → Fin s.rank))
    (v : FVec Ideal s .f32) (i : s.Idx) :
    maximumf v (broadcastInDim s ![] hb0 (constant (F := Ideal) ⟨0, ![]⟩ .f32 0x00000000#32)) i = max (v i) 0 := by
  -- the scalar laid out over the array reads its one entry everywhere: the zero word, which is the number 0
  rw [maximumf_apply]
  have e : broadcastInDim s ![] hb0 (constant (F := Ideal) ⟨0, ![]⟩ .f32 0x00000000#32) i
      = constant (F := Ideal) ⟨0, ![]⟩ .f32 0x00000000#32 ix0 :=
    broadcastInDim_apply ![] hb0 _ i ix0 fun a => a.elim0
  rw [e, constant_apply, Ideal.ofBits_zero_f32]

end Cert.Dense

end
-- ==== Proof.LibBiasRow.lean ====
/-
  A bias row added to every row of a matrix, read at an entry.

  A row  b  of C numbers is added to each of the R rows of an [R, C] array by first giving it a leading axis of
  extent 1 and then repeating that one row R times. A vector program spells the two steps as a shape cast
  [C] → [1, C] followed by a broadcast [1, C] → [R, C]; a host program spells them as two layouts in dimensions,
  [C] → [1, C] on axis 1 and [1, C] → [R, C] on axes (0, 1). Either way the entry (r, c) of the result is  b_c :
  the repetition reads the single row at (0, c) (`stretch_row_apply`, `layout_rows_apply`), and the single row at
  (0, c) is the entry c of  b  (`cast_row_apply`, `layout_row_apply`). The two whole spellings at an entry are
  `cast_stretch_apply` and `layout_layout_apply`. All of it is generic in R, C and the element type; when C = 1
  the column c is itself 0, which is the only case distinction.
-/
import Idealize.ShloMosaic.Lib.ValueIdx
import Idealize.ShloMosaic.Lib.ValueLayout
import Idealize.ShloMosaic.Lib.Pipeline.Value

noncomputable section

namespace Cert.BiasRow

open Idealize.ShloMosaic Idealize.ShloMosaic.ValueIdx

variable {R C : ℕ} {α : Type}

/-- A column number below C is 0 when C = 1, and is itself otherwise. -/
theorem col_val (c : Fin C) : c.val = if C = 1 then 0 else c.val := by
  split
  · have := c.isLt; omega
  · rfl

/-- One row repeated R times by a vector broadcast reads, at (r, c), the row's entry (0, c). -/
theorem stretch_row_apply (hbc : (⟨2, ![1, C]⟩ : Shape).Broadcasts ⟨2, ![R, C]⟩)
    (v : (⟨2, ![1, C]⟩ : Shape).Idx → α) (r : Fin R) (c : Fin C) :
    broadcastTo ⟨2, ![R, C]⟩ v hbc (ix2 r c) = v (ix2 (0 : Fin 1) c) :=
  broadcastTo_apply v hbc (ix2 r c) (ix2 (0 : Fin 1) c) fun a =>
    match a with
    | ⟨0, _⟩ => (if_pos rfl).symm
    | ⟨1, _⟩ => col_val c

/-- A row given a leading unit axis by a shape cast reads, at (0, c), its entry c. -/
theorem cast_row_apply (hsc : (⟨1, ![C]⟩ : Shape).ShapeCasts ⟨2, ![1, C]⟩)
    (b : (⟨1, ![C]⟩ : Shape).Idx → α) (c : Fin C) :
    shapeCast ⟨2, ![1, C]⟩ b hsc (ix2 (0 : Fin 1) c) = b (ix1 c) :=
  (shapeCast_addUnit_apply ![C] b hsc (ix2 (0 : Fin 1) c)).trans
    (congrArg b (funext fun a => match a with | ⟨0, _⟩ => rfl))

/-- The vector spelling whole: cast to [1, C], then repeated over R rows, at (r, c). -/
theorem cast_stretch_apply (hsc : (⟨1, ![C]⟩ : Shape).ShapeCasts ⟨2, ![1, C]⟩)
    (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) :=
  (stretch_row_apply hbc _ r c).trans (cast_row_apply hsc b c)

/-- One row laid out over R rows on axes (0, 1) reads, at (r, c), the row's entry (0, c). -/
theorem layout_rows_apply (hb2 : (⟨2, ![1, C]⟩ : Shape).BroadcastsInDim ⟨2, ![R, C]⟩ (![0, 1] : Fin 2 → Fin 2))
    (v : (⟨2, ![1, C]⟩ : Shape).Idx → α) (r : Fin R) (c : Fin C) :
    broadcastInDim ⟨2, ![R, C]⟩ ![0, 1] hb2 v (ix2 r c) = v (ix2 (0 : Fin 1) c) :=
by
  refine broadcastInDim_apply ![0, 1] hb2 v (ix2 r c) (ix2 (0 : Fin 1) c) fun a => ?_
  match a with
  | ⟨0, _⟩ => exact (if_pos rfl).symm
  | ⟨1, _⟩ => show c.val = if C = 1 then 0 else c.val; exact col_val c

/-- A row laid out as a [1, C] array on axis 1 reads, at (0, c), its entry c. -/
theorem layout_row_apply (hb1 : (⟨1, ![C]⟩ : Shape).BroadcastsInDim ⟨2, ![1, C]⟩ (![1] : Fin 1 → Fin 2))
    (b : (⟨1, ![C]⟩ : Shape).Idx → α) (c : Fin C) :
    broadcastInDim ⟨2, ![1, C]⟩ ![1] hb1 b (ix2 (0 : Fin 1) c) = b (ix1 c) :=
by
  refine broadcastInDim_apply ![1] hb1 b (ix2 (0 : Fin 1) c) (ix1 c) fun a => ?_
  match a with
  | ⟨0, _⟩ => show c.val = if C = 1 then 0 else c.val; exact col_val c

/-- The host spelling whole: laid out as [1, C] on axis 1, then over R rows, at (r, c). -/
theorem layout_layout_apply (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) :=
  (layout_rows_apply hb2 _ r c).trans (layout_row_apply hb1 b c)

end Cert.BiasRow

end
-- ==== Proof.Spec.lean ====
/-
  The three dense stages of a two-layer graph convolution, each as ONE function of whole arrays and read at an entry
  over the extended reals.

  Between the message-passing steps (gather the source rows, scale by the edge weight, add into the target rows)
  the network applies, row by row:
    * stage 1:  h(r, q) = Σ_k x(r, k) · W1(k, q)                                  (3 features to 16);
    * stage 2:  h(r, q) = Σ_k max(z(r, k) + b1(k), 0) · W2(k, q)                  (bias, rectifier, 16 features to 7);
    * stage 3:  the log-softmax of the row  y(r, ·) = z(r, ·) + b2 :
                (y(r, q) − M) − log Σ_c exp(y(r, c) − M),  M the maximum of the row.
  The whole-array functions are spelled with the host's operations (general product, layouts in dimensions,
  reduce), and each is read at (r, q) as the row formula. A row's maximum is a fold of max from −∞, so taking the
  maximum with −∞ once more changes nothing.
-/
import proofs.«108308_j7086696038552_1_alg».proof.Proof.Gen.ReferenceIdeal
import proofs.«108308_j7086696038552_1_alg».proof.Proof.LibDense
import proofs.«108308_j7086696038552_1_alg».proof.Proof.LibBiasRow
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

set_option maxRecDepth 16384

noncomputable section

open scoped BigOperators

namespace Cert.Gcn

open Idealize.ShloMosaic Idealize.ShloMosaic.ValueIdx Cert.ReferenceIdeal Cert.ReferenceIdeal.Gen

/-! ## Rows -/

/-- The maximum of a row of seven numbers, folded from −∞. -/
def rowMax (y : Fin 7 → EReal) : EReal :=
  (Finset.univ : Finset (Fin 7)).fold max (Ideal.ofBits .f32 0xFF800000#32) y

/-- The log-softmax of a row of seven numbers, entry q. -/
def rowLsm (y : Fin 7 → EReal) (q : Fin 7) : EReal :=
  (y q - rowMax y) - Ideal.log (∑ c : Fin 7, Ideal.exp (y c - rowMax y))

/-- The word 0xFF800000 is −∞, the least extended real. -/
theorem negInf_eq : Ideal.ofBits .f32 0xFF800000#32 = (⊥ : EReal) := by simp [Ideal.ofBits, Ideal.ieee]

/-- The maximum with −∞ is the other operand. -/
theorem max_negInf (x : EReal) : max (Ideal.ofBits .f32 0xFF800000#32) x = x := by
  rw [negInf_eq]; exact max_eq_right bot_le

/-! ## The stages as whole-array functions -/

variable {F : FTy → Type} [FloatOps F]

/-- Stage 1: the product of the node features with the first weight matrix. -/
def dense1 (x : (⟨S100000x3, .f32⟩ : BufTy).Contents (Elt F)) (w : (⟨S3x16, .f32⟩ : BufTy).Contents (Elt F)) :
    (⟨S100000x16, .f32⟩ : BufTy).Contents (Elt F) :=
  Host.dotGeneral dot_S100000x3_S3x16_S100000x16_1_0_0_1_n_n none x w

/-- Stage 2: the bias row added to every row, the rectifier, the product with the second weight matrix. -/
def dense2 (z : (⟨S100000x16, .f32⟩ : BufTy).Contents (Elt F)) (b : (⟨S16, .f32⟩ : BufTy).Contents (Elt F))
    (w : (⟨S16x7, .f32⟩ : BufTy).Contents (Elt F)) : (⟨S100000x7, .f32⟩ : BufTy).Contents (Elt F) :=
  Host.dotGeneral dot_S100000x16_S16x7_S100000x7_1_0_0_1_n_n none
    (maximumf
      (addf z (broadcastInDim S100000x16 ![0, 1] bcast_S1x16_S100000x16_0_1 (broadcastInDim S1x16 ![1] bcast_S16_S1x16_1 b)))
      (broadcastInDim S100000x16 ![] bcast_S_S100000x16 (constant S_ .f32 0x00000000#32)))
    w

/-- The second bias row added to every row. -/
def biased (z : (⟨S100000x7, .f32⟩ : BufTy).Contents (Elt F)) (b : (⟨S7, .f32⟩ : BufTy).Contents (Elt F)) :
    (⟨S100000x7, .f32⟩ : BufTy).Contents (Elt F) :=
  addf z (broadcastInDim S100000x7 ![0, 1] bcast_S1x7_S100000x7_0_1 (broadcastInDim S1x7 ![1] bcast_S7_S1x7_1 b))

/-- The rows' maxima, as the host takes them: the reduce from −∞ over the columns, then the maximum with −∞. -/
def rowMaxima (y : (⟨S100000x7, .f32⟩ : BufTy).Contents (Elt F)) : (⟨S100000, .f32⟩ : BufTy).Contents (Elt F) :=
  maximumf (broadcastInDim S100000 ![] bcast_S_S100000 (constant S_ .f32 0xFF800000#32))
    (Host.reduce FloatOps.maximumf y (constant S_ .f32 0xFF800000#32) reducesTo_S100000x7_S100000_d1 h_S_)

/-- A column of row statistics spread over the seven columns. -/
def spread (v : (⟨S100000, .f32⟩ : BufTy).Contents (Elt F)) : (⟨S100000x7, .f32⟩ : BufTy).Contents (Elt F) :=
  broadcastInDim S100000x7 ![0, 1] bcast_S100000x1_S100000x7_0_1 (broadcastInDim S100000x1 ![0] bcast_S100000_S100000x1_0 v)

/-- The rows shifted by their maxima. -/
def shifted (y : (⟨S100000x7, .f32⟩ : BufTy).Contents (Elt F)) : (⟨S100000x7, .f32⟩ : BufTy).Contents (Elt F) :=
  subf y (spread (rowMaxima y))

/-- Stage 3 after the bias: the log-softmax of every row. -/
def logSoftmax (y : (⟨S100000x7, .f32⟩ : BufTy).Contents (Elt F)) : (⟨S100000x7, .f32⟩ : BufTy).Contents (Elt F) :=
  subf (shifted y)
    (broadcastInDim S100000x7 ![0, 1] bcast_S100000x1_S100000x7_0_1
      (Host.log (broadcastInDim S100000x1 ![0] bcast_S100000_S100000x1_0
        (Host.reduceAdd (Host.exp (shifted y)) (constant S_ .f32 0x00000000#32) reducesTo_S100000x7_S100000_d1 h_S_))))

/-! ## The stages read at an entry, on the extended reals -/

/-- The host's exponential and logarithm, at an index, are those of the extended reals. -/
theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl

/-- Stage 1 at (r, q). -/
theorem dense1_apply (x : FVec Ideal S100000x3 .f32) (w : FVec Ideal S3x16 .f32)
    (r : Fin 100000) (q : Fin 16) :
    dense1 (F := Ideal) x w (ix2 r q) = ∑ k : Fin 3, x (ix2 r k) * w (ix2 k q) :=
  Cert.Dense.dotGeneral_plain_apply dot_S100000x3_S3x16_S100000x16_1_0_0_1_n_n rfl rfl rfl rfl rfl rfl none x w r q

/-- Stage 2 at (r, q). -/
theorem dense2_apply (z : FVec Ideal S100000x16 .f32) (b : FVec Ideal S16 .f32)
    (w : FVec Ideal S16x7 .f32) (r : Fin 100000) (q : Fin 7) :
    dense2 (F := Ideal) z b w (ix2 r q) = ∑ k : Fin 16, max (z (ix2 r k) + b (ix1 k)) 0 * w (ix2 k q) := by
  unfold dense2
  rw [Cert.Dense.dotGeneral_plain_apply dot_S100000x16_S16x7_S100000x7_1_0_0_1_n_n rfl rfl rfl rfl rfl rfl]
  refine Finset.sum_congr rfl fun k _ => ?_
  rw [Cert.Dense.host_relu_apply, addf_apply, Cert.BiasRow.layout_layout_apply]

/-- The biased array at (r, c). -/
theorem biased_apply (z : FVec Ideal S100000x7 .f32) (b : FVec Ideal S7 .f32)
    (r : Fin 100000) (c : Fin 7) : biased (F := Ideal) z b (ix2 r c) = z (ix2 r c) + b (ix1 c) := by
  unfold biased
  rw [addf_apply, Cert.BiasRow.layout_layout_apply]

/-- A column spread over the seven columns reads, at (r, c), the column's entry in row r. -/
theorem cols_apply {α : Type} (v : S100000x1.Idx → α) (r : Fin 100000) (c : Fin 7) :
    broadcastInDim S100000x7 ![0, 1] bcast_S100000x1_S100000x7_0_1 v (ix2 r c) = v (ix2 r (0 : Fin 1)) := by
  refine broadcastInDim_apply ![0, 1] bcast_S100000x1_S100000x7_0_1 v (ix2 r c) (ix2 r (0 : Fin 1)) fun a => ?_
  match a with
  | ⟨0, _⟩ => rfl
  | ⟨1, _⟩ => rfl

/-- A vector of row statistics laid out as a column reads, at (r, 0), the statistic of row r. -/
theorem col_apply {α : Type} (v : S100000.Idx → α) (r : Fin 100000) :
    broadcastInDim S100000x1 ![0] bcast_S100000_S100000x1_0 v (ix2 r (0 : Fin 1)) = v (ix1 r) := by
  refine broadcastInDim_apply ![0] bcast_S100000_S100000x1_0 v (ix2 r (0 : Fin 1)) (ix1 r) fun a => ?_
  match a with
  | ⟨0, _⟩ => rfl

/-- A row statistic spread over the columns reads, at (r, c), the statistic of row r. -/
theorem spread_apply {α : Type} (v : S100000.Idx → α) (r : Fin 100000) (c : Fin 7) :
    broadcastInDim S100000x7 ![0, 1] bcast_S100000x1_S100000x7_0_1 (broadcastInDim S100000x1 ![0] bcast_S100000_S100000x1_0 v) (ix2 r c)
      = v (ix1 r) :=
  (cols_apply _ r c).trans (col_apply v r)

/-- The host's row maxima at r: the fold of max from −∞ over the row. -/
theorem rowMaxima_apply (y : FVec Ideal S100000x7 .f32) (r : Fin 100000) :
    rowMaxima (F := Ideal) y (ix1 r) = rowMax fun c => y (ix2 r c) := by
  unfold rowMaxima
  rw [maximumf_apply]
  have e0 : broadcastInDim S100000 ![] bcast_S_S100000 (constant (F := Ideal) S_ .f32 0xFF800000#32) (ix1 r)
      = Ideal.ofBits .f32 0xFF800000#32 :=
    (broadcastInDim_apply ![] bcast_S_S100000 _ (ix1 r) ix0 fun a => a.elim0).trans (constant_apply _ _)
  rw [e0, max_negInf]
  have hred : S100000x7.Reduces [1] S100000 := by decide
  rw [Host.reduce_eq_fold_single FloatOps.maximumf y (constant (F := Ideal) S_ .f32 0xFF800000#32)
    reducesTo_S100000x7_S100000_d1 hred h_S_ (ix1 r)]
  unfold rowMax
  have e1 : (y ∘ hred.lift (ix1 r)) = fun c : Fin 7 => y (ix2 r c) :=
    funext fun c => congrArg y (funext fun a => match a with | ⟨0, _⟩ => rfl | ⟨1, _⟩ => rfl)
  rw [e1]
  rfl

/-- The shifted rows at (r, c). -/
theorem shifted_apply (y : FVec Ideal S100000x7 .f32) (r : Fin 100000) (c : Fin 7) :
    shifted (F := Ideal) y (ix2 r c) = y (ix2 r c) - rowMax fun c' => y (ix2 r c') := by
  unfold shifted spread
  rw [subf_apply, spread_apply, rowMaxima_apply]

/-- Stage 3 at (r, q): the log-softmax of row r. -/
theorem logSoftmax_apply (y : FVec Ideal S100000x7 .f32) (r : Fin 100000) (q : Fin 7) :
    logSoftmax (F := Ideal) y (ix2 r q) = rowLsm (fun c => y (ix2 r c)) q := by
  unfold logSoftmax
  rw [subf_apply, shifted_apply, cols_apply, hostLog_apply, col_apply]
  have hred : S100000x7.Reduces [1] S100000 := by decide
  -- name the exponentials of the shifted rows, keeping what they are at (r, c)
  have es : ∀ c : Fin 7, Host.exp (F := Ideal) (s := S100000x7) (φ := .f32) (shifted (F := Ideal) y) (hred.lift (ix1 r) c)
      = Ideal.exp (y (ix2 r c) - rowMax fun c' => y (ix2 r c')) := fun c => by
    have ei : hred.lift (ix1 r) c = ix2 r c := funext fun a => match a with | ⟨0, _⟩ => rfl | ⟨1, _⟩ => rfl
    rw [ei, hostExp_apply, shifted_apply]
  generalize Host.exp (F := Ideal) (s := S100000x7) (φ := .f32) (shifted (F := Ideal) y) = e at es
  simp only [Host.reduceAdd, Ideal.hostReduceAdd_def]
  rw [Ideal.hostReduceAdd_single reducesTo_S100000x7_S100000_d1 hred]
  unfold rowLsm
  have ez : constant (F := Ideal) S_ .f32 0x00000000#32 (Shape.Idx.first h_S_) = 0 := by
    rw [constant_apply, Ideal.ofBits_zero_f32]
  rw [ez, zero_add]
  exact congrArg (fun t => (y (ix2 r q) - rowMax fun c' => y (ix2 r c')) - Ideal.log t)
    (Finset.sum_congr rfl fun c _ => es c)

end Cert.Gcn

end
-- ==== Proof.RefStages.lean ====
/-
  The reference program's stages, in the vocabulary of the three dense stages.

  The reference computes the first transform as one general product of the whole arrays, the second as bias, rectifier
  and general product, and the output as bias and log-softmax; between them it passes messages along the edges. Its
  stage-by-stage values unfold to the whole-array functions `dense1`, `dense2`, `logSoftmax ∘ biased` applied to the
  message-passing results — by definition, operation for operation.
-/
import proofs.«108308_j7086696038552_1_alg».proof.Proof.RefRead
import proofs.«108308_j7086696038552_1_alg».proof.Proof.Spec

set_option maxRecDepth 16384

noncomputable section

namespace Cert.Gcn.RefStages

open Idealize.ShloMosaic Cert.ReferenceIdeal Cert.ReferenceIdeal.ReadP Cert.Gcn

variable {F : FTy → Type} [FloatOps F]

/-- The reference's first transform is stage 1. -/
theorem v32_eq (x0 : (⟨S100000x3, .f32⟩ : BufTy).Contents (Elt F)) (x2 : (⟨S3x16, .f32⟩ : BufTy).Contents (Elt F)) :
    val_main_v32 (F := F) x0 x2 = dense1 x0 x2 := rfl

/-- The reference's second transform is stage 2 of the first layer's aggregated rows. -/
theorem v50_eq (x0 : (⟨S100000x3, .f32⟩ : BufTy).Contents (Elt F)) (x1 : (⟨S2x3200000, .i32⟩ : BufTy).Contents (Elt F))
    (x2 : (⟨S3x16, .f32⟩ : BufTy).Contents (Elt F)) (x3 : (⟨S16, .f32⟩ : BufTy).Contents (Elt F))
    (x4 : (⟨S16x7, .f32⟩ : BufTy).Contents (Elt F)) :
    val_main_v50 (F := F) x0 x1 x2 x3 x4 = dense2 (val_main_v45 (F := F) x0 x1 x2) x3 x4 := rfl

/-- The reference's result is stage 3 of the second layer's aggregated rows. -/
theorem v67_eq (x0 : (⟨S100000x3, .f32⟩ : BufTy).Contents (Elt F)) (x1 : (⟨S2x3200000, .i32⟩ : BufTy).Contents (Elt F))
    (x2 : (⟨S3x16, .f32⟩ : BufTy).Contents (Elt F)) (x3 : (⟨S16, .f32⟩ : BufTy).Contents (Elt F))
    (x4 : (⟨S16x7, .f32⟩ : BufTy).Contents (Elt F)) (x5 : (⟨S7, .f32⟩ : BufTy).Contents (Elt F)) :
    val_main_v67 (F := F) x0 x1 x2 x3 x4 x5 = logSoftmax (biased (val_main_v63 (F := F) x0 x1 x2 x3 x4) x5) := rfl

end Cert.Gcn.RefStages

end
-- ==== Proof.Region0.lean ====
/-
  Layer 1's dense product, block by block.

  The first pallas_call computes X·W1 for the 100000 rows of X in four blocks of 25000 rows: grid point t loads rows
  25000·t … 25000·t + 24999 of X and all of W1 and writes the product into the same rows of the output. Entry (r, q)
  of a block's product — the matrix unit's product into a zero accumulator — is Σ_k X(25000·t + r, k) · W1(k, q) on the
  extended reals, which is the entry (25000·t + r, q) of the whole product X·W1. The four blocks tile the 100000 rows,
  so the array the region leaves is the whole product.
-/
import proofs.«108308_j7086696038552_1_alg».proof.Proof.Gen.KernelIdeal.Frame
import proofs.«108308_j7086696038552_1_alg».proof.Proof.Spec

set_option maxRecDepth 16384

noncomputable section

open scoped BigOperators

namespace Cert.Gcn.Region0

open Idealize.ShloMosaic Idealize.ShloMosaic.ValueIdx Idealize.ShloMosaic.TcCoe Idealize.SL.Sem
open Idealize.ShloMosaic.Pipeline (Dat)
open Cert.KernelIdeal Cert.KernelIdeal.Gen

theorem hz : (![0, 0] : Fin 2 → Nat) = fun _ => 0 := funext fun a => by fin_cases a <;> rfl

/-- A block's product into zeros at (r, q): the sum over the three input features. -/
theorem pay_apply (a : Vec Ideal S25000x3 .f32) (w : Vec Ideal S3x16 .f32) (r : Fin 25000) (q : Fin 16) :
    k0_pay1 (F := Ideal) a w (ix2 r q) = ∑ k : Fin 3, a (ix2 r k) * w (ix2 k q) := by
  unfold k0_pay1
  exact Cert.Dense.matmul_zero_plain_apply dot_S25000x3_S3x16_S25000x16_1_0_0_1_n_n rfl rfl rfl rfl rfl rfl (some .fp32) a w r q

/-- The index maps over the four grid points: point t takes row block t of X and of the output, and the whole of W1. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 4 :=
  (by decide +kernel : ∀ t : Fin grid0.N, _)

variable (V : (c : Dev nD) → (b : Ref sig .tc) → Buf (Elt Ideal) ((c : Thread nD τ).loc b))

/-- What grid point t writes back is block t of the whole product. -/
theorem flushed_eq (c : Dev nD) (x : (⟨S100000x3, .f32⟩ : BufTy).Contents (Elt Ideal)) (w : (⟨S3x16, .f32⟩ : BufTy).Contents (Elt Ideal))
    (hx : V c main_arg0 = x) (hw : V c main_arg2 = w) (t : Fin cfg0.N) :
    (dat0 V c).flushed 2 t = ((cfg0.win 2).blk t).view.read (Elt Ideal) (dense1 (F := Ideal) x w) := by
  show (cfg0.win 2).cut (grid0.coords t) ((dat0 V c).after 2 t) = _
  rw [after0_2]
  unfold out0_2
  rw [View.canon_unit_zero hz]
  simp only [View.ld_unit_zero (S := S25000x3) hz, View.ld_unit_zero (S := S3x16) hz]
  obtain ⟨e0, e1, e2, e3, e4, e5, e6⟩ := idx_facts t
  funext j
  obtain ⟨r, q, rfl⟩ : ∃ (r : Fin 25000) (q : Fin 16), j = ix2 r q := ⟨j 0, j 1, eq_ix2 j⟩
  have hrow : t.val * 25000 + r.val < 100000 := by have := r.isLt; omega
  -- the block's entry is the sum over the features of the block's row of X against W1's column
  refine (pay_apply (iblk0 V c 0 t) (iblk0 V c 1 t) r q).trans ?_
  -- the output block's entry (r, q) sits at row 25000·t + r of the array
  have hemb : ((cfg0.win 2).blk t).view.emb (ix2 r q) = ix2 (⟨t.val * 25000 + r.val, hrow⟩ : Fin 100000) q := by
    funext a; apply Fin.ext
    match a with
    | ⟨0, _⟩ => show win0_2.index t (0 : Fin 2) * 25000 + 1 * r.val = t.val * 25000 + r.val; omega
    | ⟨1, _⟩ => show win0_2.index t (1 : Fin 2) * 16 + 1 * q.val = q.val; omega
  show _ = dense1 (F := Ideal) x w (((cfg0.win 2).blk t).view.emb (ix2 r q))
  rw [hemb, dense1_apply]
  refine Finset.sum_congr rfl fun k _ => ?_
  -- X's block at (r, k) is X at (25000·t + r, k); W1's block is W1
  have hxb : iblk0 V c 0 t (ix2 r k) = x (ix2 (⟨t.val * 25000 + r.val, hrow⟩ : Fin 100000) k) := by
    show V c main_arg0 (((cfg0.win 0).blk t).view.emb (ix2 r k)) = _
    rw [hx]
    refine congrArg x ?_
    funext a; apply Fin.ext
    match a with
    | ⟨0, _⟩ => show win0_0.index t (0 : Fin 2) * 25000 + 1 * r.val = t.val * 25000 + r.val; omega
    | ⟨1, _⟩ => show win0_0.index t (1 : Fin 2) * 3 + 1 * k.val = k.val; omega
  have hwb : iblk0 V c 1 t (ix2 k q) = w (ix2 k q) := by
    show V c main_arg2 (((cfg0.win 1).blk t).view.emb (ix2 k q)) = _
    rw [hw]
    refine congrArg w ?_
    funext a; apply Fin.ext
    match a with
    | ⟨0, _⟩ => show win0_1.index t (0 : Fin 2) * 3 + 1 * k.val = k.val; omega
    | ⟨1, _⟩ => show win0_1.index t (1 : Fin 2) * 16 + 1 * q.val = q.val; omega
  rw [hxb, hwb]

/-- An index of the output array is in point t's block iff its row lies in row block t. -/
theorem mem_blk (t : Fin cfg0.N) (i : S100000x16.Idx) :
    i ∈ ((cfg0.win 2).blk t).view.set ↔ ∀ a : Fin 2, win0_2.index t a * S25000x16.size a ≤ (i a).val ∧ (i a).val < win0_2.index t a * S25000x16.size a + S25000x16.size a := by
  show i ∈ ((View.whole main_v32).slice (win0_2.rect t)).set ↔ _
  rw [View.set_slice_whole, Rect.mem_set_unit]
  exact Iff.rfl

/-- The four row blocks cover the array: row i lies in block i / 25000. -/
theorem cover (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : (i 0).val / 25000 < cfg0.N := by show _ < grid0.N; rw [N_0]; omega
  refine ⟨⟨(i 0).val / 25000, hN⟩, flush0_2 _, ?_⟩
  obtain ⟨e0, e1, e2, e3, e4, e5, e6⟩ := idx_facts ⟨(i 0).val / 25000, hN⟩
  rw [mem_blk]
  intro a
  match a with
  | ⟨0, _⟩ =>
    show win0_2.index ⟨(i 0).val / 25000, hN⟩ (0 : Fin 2) * 25000 ≤ (i 0).val ∧ (i 0).val < win0_2.index ⟨(i 0).val / 25000, hN⟩ (0 : Fin 2) * 25000 + 25000
    rw [e4]; show (i 0).val / 25000 * 25000 ≤ (i 0).val ∧ (i 0).val < (i 0).val / 25000 * 25000 + 25000; omega
  | ⟨1, _⟩ =>
    show win0_2.index ⟨(i 0).val / 25000, hN⟩ (1 : Fin 2) * 16 ≤ (i 1).val ∧ (i 1).val < win0_2.index ⟨(i 0).val / 25000, hN⟩ (1 : Fin 2) * 16 + 16
    rw [e5]; omega

/-- THE ARRAY the first region leaves: the whole product of the arrays it found as X and W1. -/
theorem array_eq (c : Dev nD) (x : (⟨S100000x3, .f32⟩ : BufTy).Contents (Elt Ideal)) (w : (⟨S3x16, .f32⟩ : BufTy).Contents (Elt Ideal))
    (hx : V c main_arg0 = x) (hw : V c main_arg2 = w) :
    (dat0 V c).arrAt 2 cfg0.N = dense1 (F := Ideal) x w :=
  (dat0 V c).arrAt_eq_of_cover 2 (dense1 (F := Ideal) x w) (fun t _ => flushed_eq V c x w hx hw t) cover

end Cert.Gcn.Region0

end
-- ==== Proof.Region1.lean ====
/-
  Layer 2's dense stage, block by block.

  The second pallas_call takes the aggregated 16-feature rows Z in four blocks of 25000 rows, adds the bias row b1 to
  every row, applies the rectifier max(·, 0) and multiplies by W2. Entry (r, q) of a block's result is
  Σ_k max(Z(25000·t + r, k) + b1(k), 0) · W2(k, q) on the extended reals: the bias row is stored as a [1, 16] array and
  stretched over the rows, so the block's row r sees b1 itself; the product into a zero accumulator is the sum. That is
  the entry (25000·t + r, q) of the whole stage applied to Z, and the four blocks tile the 100000 rows.
-/
import proofs.«108308_j7086696038552_1_alg».proof.Proof.Gen.KernelIdeal.Frame
import proofs.«108308_j7086696038552_1_alg».proof.Proof.Spec

set_option maxRecDepth 16384

noncomputable section

open scoped BigOperators

namespace Cert.Gcn.Region1

open Idealize.ShloMosaic Idealize.ShloMosaic.ValueIdx Idealize.ShloMosaic.TcCoe Idealize.SL.Sem
open Idealize.ShloMosaic.Pipeline (Dat)
open Cert.KernelIdeal Cert.KernelIdeal.Gen

theorem hz : (![0, 0] : Fin 2 → Nat) = fun _ => 0 := funext fun a => by fin_cases a <;> rfl

/-- A block's result at (r, q): bias, rectifier, then the sum over the sixteen features against W2's column. -/
theorem pay_apply (a : FVec Ideal S25000x16 .f32) (b : FVec Ideal S1x16 .f32) (w : FVec Ideal S16x7 .f32) (r : Fin 25000) (q : Fin 7) :
    k1_pay1 (F := Ideal) a b w (ix2 r q) = ∑ k : Fin 16, max (a (ix2 r k) + b (ix2 (0 : Fin 1) k)) 0 * w (ix2 k q) := by
  unfold k1_pay1
  rw [shapeCast_self, shapeCast_self]
  refine (Cert.Dense.matmul_zero_plain_apply dot_S25000x16_S16x7_S25000x7_1_0_0_1_n_n rfl rfl rfl rfl rfl rfl (some .fp32) _ w r q).trans ?_
  refine Finset.sum_congr rfl fun k _ => ?_
  rw [Cert.Dense.kernel_relu_apply, addf_apply, Cert.BiasRow.stretch_row_apply]

/-- The index maps over the four grid points: point t takes row block t of Z and of the output, and the whole of the
    bias row and of W2. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 4 :=
  (by decide +kernel : ∀ t : Fin grid1.N, _)

variable (V : (c : Dev nD) → (b : Ref sig .tc) → Buf (Elt Ideal) ((c : Thread nD τ).loc b))

/-- What grid point t writes back is block t of the whole stage applied to Z. -/
theorem flushed_eq (c : Dev nD) (z : (⟨S100000x16, .f32⟩ : BufTy).Contents (Elt Ideal)) (b : (⟨S16, .f32⟩ : BufTy).Contents (Elt Ideal))
    (w : (⟨S16x7, .f32⟩ : BufTy).Contents (Elt Ideal))
    (hzv : V c main_v45 = z) (hb : ∀ k : Fin 16, V c main_v46 (ix2 (0 : Fin 1) k) = b (ix1 k)) (hw : V c main_arg4 = w) (t : Fin cfg1.N) :
    (dat1 V c).flushed 3 t = ((cfg1.win 3).blk t).view.read (Elt Ideal) (dense2 (F := Ideal) z b w) := by
  show (cfg1.win 3).cut (grid1.coords t) ((dat1 V c).after 3 t) = _
  rw [after1_3]
  unfold out1_3
  rw [View.canon_unit_zero hz]
  simp only [View.ld_unit_zero (S := S25000x16) hz, View.ld_unit_zero (S := S1x16) hz, View.ld_unit_zero (S := S16x7) hz]
  obtain ⟨e0, e1, e2, e3, e4, e5, e6, e7, e8⟩ := idx_facts t
  funext j
  obtain ⟨r, q, rfl⟩ : ∃ (r : Fin 25000) (q : Fin 7), j = ix2 r q := ⟨j 0, j 1, eq_ix2 j⟩
  have hrow : t.val * 25000 + r.val < 100000 := by have := r.isLt; omega
  refine (pay_apply (iblk1 V c 0 t) (iblk1 V c 1 t) (iblk1 V c 2 t) r q).trans ?_
  -- the output block's entry (r, q) sits at row 25000·t + r of the array
  have hemb : ((cfg1.win 3).blk t).view.emb (ix2 r q) = ix2 (⟨t.val * 25000 + r.val, hrow⟩ : Fin 100000) q := by
    funext a; apply Fin.ext
    match a with
    | ⟨0, _⟩ => show win1_3.index t (0 : Fin 2) * 25000 + 1 * r.val = t.val * 25000 + r.val; omega
    | ⟨1, _⟩ => show win1_3.index t (1 : Fin 2) * 7 + 1 * q.val = q.val; omega
  show _ = dense2 (F := Ideal) z b w (((cfg1.win 3).blk t).view.emb (ix2 r q))
  rw [hemb, dense2_apply]
  refine Finset.sum_congr rfl fun k _ => ?_
  -- Z's block at (r, k) is Z at (25000·t + r, k); the bias block is the bias row; W2's block is W2
  have hzb : iblk1 V c 0 t (ix2 r k) = z (ix2 (⟨t.val * 25000 + r.val, hrow⟩ : Fin 100000) k) := by
    show V c main_v45 (((cfg1.win 0).blk t).view.emb (ix2 r k)) = _
    rw [hzv]
    refine congrArg z ?_
    funext a; apply Fin.ext
    match a with
    | ⟨0, _⟩ => show win1_0.index t (0 : Fin 2) * 25000 + 1 * r.val = t.val * 25000 + r.val; omega
    | ⟨1, _⟩ => show win1_0.index t (1 : Fin 2) * 16 + 1 * k.val = k.val; omega
  have hbb : iblk1 V c 1 t (ix2 (0 : Fin 1) k) = b (ix1 k) := by
    show V c main_v46 (((cfg1.win 1).blk t).view.emb (ix2 (0 : Fin 1) k)) = _
    refine Eq.trans (congrArg (V c main_v46) ?_) (hb k)
    funext a; apply Fin.ext
    match a with
    | ⟨0, _⟩ => show win1_1.index t (0 : Fin 2) * 1 + 1 * 0 = 0; omega
    | ⟨1, _⟩ => show win1_1.index t (1 : Fin 2) * 16 + 1 * k.val = k.val; omega
  have hwb : iblk1 V c 2 t (ix2 k q) = w (ix2 k q) := by
    show V c main_arg4 (((cfg1.win 2).blk t).view.emb (ix2 k q)) = _
    rw [hw]
    refine congrArg w ?_
    funext a; apply Fin.ext
    match a with
    | ⟨0, _⟩ => show win1_2.index t (0 : Fin 2) * 16 + 1 * k.val = k.val; omega
    | ⟨1, _⟩ => show win1_2.index t (1 : Fin 2) * 7 + 1 * q.val = q.val; omega
  rw [hzb, hbb, hwb]

/-- An index of the output array is in point t's block iff its row lies in row block t. -/
theorem mem_blk (t : Fin cfg1.N) (i : S100000x7.Idx) :
    i ∈ ((cfg1.win 3).blk t).view.set ↔ ∀ a : Fin 2, win1_3.index t a * S25000x7.size a ≤ (i a).val ∧ (i a).val < win1_3.index t a * S25000x7.size a + S25000x7.size a := by
  show i ∈ ((View.whole main_v47).slice (win1_3.rect t)).set ↔ _
  rw [View.set_slice_whole, Rect.mem_set_unit]
  exact Iff.rfl

/-- The four row blocks cover the array: row i lies in block i / 25000. -/
theorem cover (i : S100000x7.Idx) : ∃ t : Fin cfg1.N, (cfg1.win 3).flush t = true ∧ i ∈ ((cfg1.win 3).blk t).view.set := by
  have hi0 : (i 0).val < 100000 := (i 0).isLt
  have hi1 : (i 1).val < 7 := (i 1).isLt
  have hN : (i 0).val / 25000 < cfg1.N := by show _ < grid1.N; rw [N_1]; omega
  refine ⟨⟨(i 0).val / 25000, hN⟩, flush1_3 _, ?_⟩
  obtain ⟨e0, e1, e2, e3, e4, e5, e6, e7, e8⟩ := idx_facts ⟨(i 0).val / 25000, hN⟩
  rw [mem_blk]
  intro a
  match a with
  | ⟨0, _⟩ =>
    show win1_3.index ⟨(i 0).val / 25000, hN⟩ (0 : Fin 2) * 25000 ≤ (i 0).val ∧ (i 0).val < win1_3.index ⟨(i 0).val / 25000, hN⟩ (0 : Fin 2) * 25000 + 25000
    rw [e6]; show (i 0).val / 25000 * 25000 ≤ (i 0).val ∧ (i 0).val < (i 0).val / 25000 * 25000 + 25000; omega
  | ⟨1, _⟩ =>
    show win1_3.index ⟨(i 0).val / 25000, hN⟩ (1 : Fin 2) * 7 ≤ (i 1).val ∧ (i 1).val < win1_3.index ⟨(i 0).val / 25000, hN⟩ (1 : Fin 2) * 7 + 7
    rw [e7]; omega

/-- THE ARRAY the second region leaves: the whole stage applied to the arrays it found as Z, the bias row and W2. -/
theorem array_eq (c : Dev nD) (z : (⟨S100000x16, .f32⟩ : BufTy).Contents (Elt Ideal)) (b : (⟨S16, .f32⟩ : BufTy).Contents (Elt Ideal))
    (w : (⟨S16x7, .f32⟩ : BufTy).Contents (Elt Ideal))
    (hzv : V c main_v45 = z) (hb : ∀ k : Fin 16, V c main_v46 (ix2 (0 : Fin 1) k) = b (ix1 k)) (hw : V c main_arg4 = w) :
    (dat1 V c).arrAt 3 cfg1.N = dense2 (F := Ideal) z b w :=
  (dat1 V c).arrAt_eq_of_cover 3 (dense2 (F := Ideal) z b w) (fun t _ => flushed_eq V c z b w hzv hb hw t) cover

end Cert.Gcn.Region1

end
-- ==== Proof.LibRowMax.lean ====
/-
  The maximum over the last axis of an [a, b] matrix, on the extended reals, read at row i: the fold of `max`, from the
  value of the start word, over the columns c of the matrix's entry at (i, c) — in any order, `max` being commutative
  and associative.
-/
import Idealize.ShloMosaic.PureOps.Ideal.Laws
import Idealize.ShloMosaic.Lib.ValueIdx

namespace Cert.LibRowMax

open Idealize.ShloMosaic Idealize.ShloMosaic.ValueIdx

/-- The row with the column coordinate put back is the entry (i, c). -/
theorem lift_row {a b : ℕ} (h : (⟨2, ![a, b]⟩ : Shape).Reduces [1] ⟨1, ![a]⟩) (i : Fin a) (c : Fin b) :
    h.lift (ix1 i) c = ix2 i c := by
  funext ax
  match ax with
  | ⟨0, _⟩ => rfl
  | ⟨1, _⟩ => rfl

/-- The row maximum at i, folded from the start word's value over the columns. -/
theorem rowMax_apply {a b : ℕ} (src : FVec Ideal (⟨2, ![a, b]⟩ : Shape) .f32) (acc : BitVec 32)
    (h : (⟨2, ![a, b]⟩ : Shape).Reduces [1] ⟨1, ![a]⟩) (hφ : FKind.Formats .f32)
    (hacc : acc = FKind.maximumf.neutral .f32 hφ) (i : Fin a) :
    multiReduction .maximumf [1] ⟨1, ![a]⟩ src acc h hφ hacc (ix1 i)
      = (Finset.univ : Finset (Fin b)).fold max (Ideal.ofBits .f32 acc) (fun c => src (ix2 i c)) := by
  refine (Ideal.multiReduction_maximumf_single src acc h hφ hacc (ix1 i)).trans ?_
  have e : (src ∘ h.lift (ix1 i)) = fun c : Fin b => src (ix2 i c) :=
    funext fun c => congrArg src (lift_row h i c)
  rw [e]
  rfl

end Cert.LibRowMax
-- ==== Proof.LibKeepdimsColumn.lean ====
/-
  The layout steps of a row statistic kept as a column (a sum over the last axis with the reduced axis kept at size one),
  read at an index given by coordinates, for any element type and any extents:
  a vector of length a laid out as an [a, 1] column reads, at (i, u), the vector at i;
  an [a, 1] column spread over the b columns of an [a, b] matrix reads, at (i, c), the column at (i, 0);
  and, on the extended reals, the sum over the last axis of an [a, b] matrix reads, at i, the sum over c of the matrix at (i, c).
-/
import Idealize.ShloMosaic.Lib.ValueLayout
import Idealize.ShloMosaic.PureOps.Ideal.Laws

open scoped BigOperators

namespace Cert.LibKeepdimsColumn

open Idealize.ShloMosaic Idealize.ShloMosaic.ValueIdx

variable {α : Type}

/-- A vector of length `a` laid out as an `[a, 1]` column: the entry at `(i, u)` is the vector's entry at `i`,
    whatever the unit coordinate `u` (both have row-major position `i`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread over the columns of an `[a, b]` matrix: the entry at `(i, c)` is the column's entry in
    row `i`. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- On the extended reals, the sum over the last axis of an `[a, b]` matrix, started from the zero word: the entry at `i`
    is the sum over the columns `c` of the matrix's entry at `(i, c)`. (The start word's evidence is typed as a printed
    program carries it: the word equal to itself, which is what the neutral word of a sum unfolds to.) -/
theorem rowSum_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ c : Fin b, src (ix2 i c) := by
  refine (Ideal.multiReduction_add_single src 0x00000000#32 h hφ hacc (ix1 i)).trans ?_
  refine Finset.sum_congr rfl fun c _ => congrArg src ?_
  funext ax
  match ax with
  | ⟨0, _⟩ => rfl
  | ⟨1, _⟩ => rfl

end Cert.LibKeepdimsColumn
-- ==== Proof.Region2.lean ====
/-
  The output stage, block by block: bias and log-softmax.

  The third pallas_call takes the aggregated 7-class rows Z in four blocks of 25000 rows, adds the bias row b2 to every
  row and takes the log-softmax of each row: with y = Z(25000·t + r, ·) + b2 and M the maximum of y (a fold of max from
  −∞ over the seven columns), entry (r, q) of the block's result is (y_q − M) − log Σ_c exp(y_c − M). A row statistic
  (the maximum, the sum of exponentials) is a vector of 25000 numbers laid out as a column and spread back over the
  seven columns, so at (r, ·) it is the statistic of row r. In-kernel exp and log are the exponential and the logarithm
  of the extended reals. That is the log-softmax of row 25000·t + r of Z + b2, and the four blocks tile the rows.
-/
import proofs.«108308_j7086696038552_1_alg».proof.Proof.Gen.KernelIdeal.Frame
import proofs.«108308_j7086696038552_1_alg».proof.Proof.Spec
import proofs.«108308_j7086696038552_1_alg».proof.Proof.LibRowMax
import proofs.«108308_j7086696038552_1_alg».proof.Proof.LibKeepdimsColumn

set_option maxRecDepth 16384

noncomputable section

open scoped BigOperators

namespace Cert.Gcn.Region2

open Idealize.ShloMosaic Idealize.ShloMosaic.ValueIdx Idealize.ShloMosaic.TcCoe Idealize.SL.Sem
open Idealize.ShloMosaic.Pipeline (Dat)
open Cert.KernelIdeal Cert.KernelIdeal.Gen

theorem hz : (![0, 0] : Fin 2 → Nat) = fun _ => 0 := funext fun a => by fin_cases a <;> rfl

/-- The block with the bias row added to every row. -/
def biasedBlk (a : FVec Ideal S25000x7 .f32) (b : FVec Ideal S1x7 .f32) : FVec Ideal S25000x7 .f32 :=
  addf (shapeCast S25000x7 a shapeCasts_S25000x7_S25000x7)
    (broadcastTo S25000x7 (shapeCast S1x7 b shapeCasts_S1x7_S1x7) broadcasts_S1x7_S25000x7)

/-- A block with each row's maximum subtracted from the row. -/
def shiftedBlk (y : FVec Ideal S25000x7 .f32) : FVec Ideal S25000x7 .f32 :=
  subf y (broadcastTo S25000x7 (shapeCast S25000x1
    (multiReduction .maximumf [1] S25000 y 0xFF800000#32 reduces_S25000x7_S25000 (.inl rfl) rfl) shapeCasts_S25000_S25000x1)
    broadcasts_S25000x1_S25000x7)

/-- A block with the logarithm of each row's sum of exponentials subtracted from the row. -/
def normedBlk (s : FVec Ideal S25000x7 .f32) : FVec Ideal S25000x7 .f32 :=
  subf s (broadcastTo S25000x7 (log (shapeCast S25000x1
    (multiReduction .add [1] S25000 (exp s) 0x00000000#32 reduces_S25000x7_S25000 (.inl rfl) rfl) shapeCasts_S25000_S25000x1))
    broadcasts_S25000x1_S25000x7)

/-- The body's stored value is those three steps in turn. -/
theorem pay_eq (a : FVec Ideal S25000x7 .f32) (b : FVec Ideal S1x7 .f32) :
    k2_pay1 (F := Ideal) a b = normedBlk (shiftedBlk (biasedBlk a b)) := rfl

/-- The biased block at (r, c). -/
theorem biasedBlk_apply (a : FVec Ideal S25000x7 .f32) (b : FVec Ideal S1x7 .f32) (r : Fin 25000) (c : Fin 7) :
    biasedBlk a b (ix2 r c) = a (ix2 r c) + b (ix2 (0 : Fin 1) c) := by
  unfold biasedBlk
  rw [shapeCast_self, shapeCast_self, addf_apply, Cert.BiasRow.stretch_row_apply]

/-- The maximum over the seven columns of a block, from −∞, at row r. -/
theorem rowMax_blk (y : FVec Ideal S25000x7 .f32) (h : S25000x7.Reduces [1] S25000) (hφ : FKind.Formats .f32)
    (hacc : (0xFF800000#32 : BitVec 32) = 0xFF800000#32) (r : Fin 25000) :
    multiReduction .maximumf [1] S25000 y 0xFF800000#32 h hφ hacc (ix1 r) = rowMax fun c => y (ix2 r c) :=
  (Cert.LibRowMax.rowMax_apply y 0xFF800000#32 h hφ hacc r).trans rfl

/-- The shifted block at (r, c): the row statistic is a column spread back over the columns. -/
theorem shiftedBlk_apply (y : FVec Ideal S25000x7 .f32) (r : Fin 25000) (c : Fin 7) :
    shiftedBlk y (ix2 r c) = y (ix2 r c) - rowMax fun c' => y (ix2 r c') := by
  unfold shiftedBlk
  rw [subf_apply]
  refine congrArg (fun t => y (ix2 r c) - t) ?_
  refine (Cert.LibKeepdimsColumn.broadcastTo_a1_ab_apply _ broadcasts_S25000x1_S25000x7 r c).trans ?_
  refine (Cert.LibKeepdimsColumn.shapeCast_a_a1_apply _ shapeCasts_S25000_S25000x1 r 0).trans ?_
  exact rowMax_blk y _ _ _ r

/-- In-kernel log and exp, at an index, are the logarithm and the exponential of the extended reals. -/
theorem log_apply {s : Shape} (v : FVec Ideal s .f32) (i : s.Idx) : log v i = Ideal.log (v i) := rfl
theorem exp_apply {s : Shape} (v : FVec Ideal s .f32) (i : s.Idx) : exp v i = Ideal.exp (v i) := rfl

/-- The normed block at (r, q). -/
theorem normedBlk_apply (s : FVec Ideal S25000x7 .f32) (r : Fin 25000) (q : Fin 7) :
    normedBlk s (ix2 r q) = s (ix2 r q) - Ideal.log (∑ c : Fin 7, Ideal.exp (s (ix2 r c))) := by
  unfold normedBlk
  rw [subf_apply]
  refine congrArg (fun t => s (ix2 r q) - t) ?_
  refine (Cert.LibKeepdimsColumn.broadcastTo_a1_ab_apply _ broadcasts_S25000x1_S25000x7 r q).trans ?_
  refine (log_apply _ (ix2 r (0 : Fin 1))).trans ?_
  refine congrArg Ideal.log ?_
  refine (Cert.LibKeepdimsColumn.shapeCast_a_a1_apply _ shapeCasts_S25000_S25000x1 r 0).trans ?_
  refine (Cert.LibKeepdimsColumn.rowSum_apply (exp s) _ _ _ r).trans ?_
  exact Finset.sum_congr rfl fun c _ => exp_apply s (ix2 r c)

/-- A block's result at (r, q): the log-softmax of the biased row r. -/
theorem pay_apply (a : FVec Ideal S25000x7 .f32) (b : FVec Ideal S1x7 .f32) (r : Fin 25000) (q : Fin 7) :
    k2_pay1 (F := Ideal) a b (ix2 r q) = rowLsm (fun c => a (ix2 r c) + b (ix2 (0 : Fin 1) c)) q := by
  have hrow : (fun c => biasedBlk a b (ix2 r c)) = fun c => a (ix2 r c) + b (ix2 (0 : Fin 1) c) :=
    funext fun c => biasedBlk_apply a b r c
  rw [pay_eq, normedBlk_apply, ← hrow]
  unfold rowLsm
  rw [shiftedBlk_apply]
  exact congrArg (fun t => (biasedBlk a b (ix2 r q) - rowMax fun c' => biasedBlk a b (ix2 r c')) - Ideal.log t)
    (Finset.sum_congr rfl fun c _ => congrArg Ideal.exp (shiftedBlk_apply (biasedBlk a b) r c))

/-- The index maps over the four grid points: point t takes row block t of Z and of the output, and the whole bias row. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 4 :=
  (by decide +kernel : ∀ t : Fin grid2.N, _)

variable (V : (c : Dev nD) → (b : Ref sig .tc) → Buf (Elt Ideal) ((c : Thread nD τ).loc b))

/-- What grid point t writes back is block t of the log-softmax of Z + b2. -/
theorem flushed_eq (c : Dev nD) (z : (⟨S100000x7, .f32⟩ : BufTy).Contents (Elt Ideal)) (b : (⟨S7, .f32⟩ : BufTy).Contents (Elt Ideal))
    (hzv : V c main_v60 = z) (hb : ∀ k : Fin 7, V c main_v61 (ix2 (0 : Fin 1) k) = b (ix1 k)) (t : Fin cfg2.N) :
    (dat2 V c).flushed 2 t = ((cfg2.win 2).blk t).view.read (Elt Ideal) (logSoftmax (F := Ideal) (biased (F := Ideal) z b)) := by
  show (cfg2.win 2).cut (grid2.coords t) ((dat2 V c).after 2 t) = _
  rw [after2_2]
  unfold out2_2
  rw [View.canon_unit_zero hz]
  simp only [View.ld_unit_zero (S := S25000x7) hz, View.ld_unit_zero (S := S1x7) hz]
  obtain ⟨e0, e1, e2, e3, e4, e5, e6⟩ := idx_facts t
  funext j
  obtain ⟨r, q, rfl⟩ : ∃ (r : Fin 25000) (q : Fin 7), j = ix2 r q := ⟨j 0, j 1, eq_ix2 j⟩
  have hrow : t.val * 25000 + r.val < 100000 := by have := r.isLt; omega
  refine (pay_apply (iblk2 V c 0 t) (iblk2 V c 1 t) r q).trans ?_
  -- the output block's entry (r, q) sits at row 25000·t + r of the array
  have hemb : ((cfg2.win 2).blk t).view.emb (ix2 r q) = ix2 (⟨t.val * 25000 + r.val, hrow⟩ : Fin 100000) q := by
    funext a; apply Fin.ext
    match a with
    | ⟨0, _⟩ => show win2_2.index t (0 : Fin 2) * 25000 + 1 * r.val = t.val * 25000 + r.val; omega
    | ⟨1, _⟩ => show win2_2.index t (1 : Fin 2) * 7 + 1 * q.val = q.val; omega
  show _ = logSoftmax (F := Ideal) (biased (F := Ideal) z b) (((cfg2.win 2).blk t).view.emb (ix2 r q))
  rw [hemb, logSoftmax_apply]
  refine congrArg (fun y => rowLsm y q) (funext fun k => ?_)
  rw [biased_apply]
  -- Z's block at (r, k) is Z at (25000·t + r, k); the bias block is the bias row
  have hzb : iblk2 V c 0 t (ix2 r k) = z (ix2 (⟨t.val * 25000 + r.val, hrow⟩ : Fin 100000) k) := by
    show V c main_v60 (((cfg2.win 0).blk t).view.emb (ix2 r k)) = _
    rw [hzv]
    refine congrArg z ?_
    funext a; apply Fin.ext
    match a with
    | ⟨0, _⟩ => show win2_0.index t (0 : Fin 2) * 25000 + 1 * r.val = t.val * 25000 + r.val; omega
    | ⟨1, _⟩ => show win2_0.index t (1 : Fin 2) * 7 + 1 * k.val = k.val; omega
  have hbb : iblk2 V c 1 t (ix2 (0 : Fin 1) k) = b (ix1 k) := by
    show V c main_v61 (((cfg2.win 1).blk t).view.emb (ix2 (0 : Fin 1) k)) = _
    refine Eq.trans (congrArg (V c main_v61) ?_) (hb k)
    funext a; apply Fin.ext
    match a with
    | ⟨0, _⟩ => show win2_1.index t (0 : Fin 2) * 1 + 1 * 0 = 0; omega
    | ⟨1, _⟩ => show win2_1.index t (1 : Fin 2) * 7 + 1 * k.val = k.val; omega
  rw [hzb, hbb]

/-- An index of the output array is in point t's block iff its row lies in row block t. -/
theorem mem_blk (t : Fin cfg2.N) (i : S100000x7.Idx) :
    i ∈ ((cfg2.win 2).blk t).view.set ↔ ∀ a : Fin 2, win2_2.index t a * S25000x7.size a ≤ (i a).val ∧ (i a).val < win2_2.index t a * S25000x7.size a + S25000x7.size a := by
  show i ∈ ((View.whole main_v62).slice (win2_2.rect t)).set ↔ _
  rw [View.set_slice_whole, Rect.mem_set_unit]
  exact Iff.rfl

/-- The four row blocks cover the array: row i lies in block i / 25000. -/
theorem cover (i : S100000x7.Idx) : ∃ t : Fin cfg2.N, (cfg2.win 2).flush t = true ∧ i ∈ ((cfg2.win 2).blk t).view.set := by
  have hi0 : (i 0).val < 100000 := (i 0).isLt
  have hi1 : (i 1).val < 7 := (i 1).isLt
  have hN : (i 0).val / 25000 < cfg2.N := by show _ < grid2.N; rw [N_2]; omega
  refine ⟨⟨(i 0).val / 25000, hN⟩, flush2_2 _, ?_⟩
  obtain ⟨e0, e1, e2, e3, e4, e5, e6⟩ := idx_facts ⟨(i 0).val / 25000, hN⟩
  rw [mem_blk]
  intro a
  match a with
  | ⟨0, _⟩ =>
    show win2_2.index ⟨(i 0).val / 25000, hN⟩ (0 : Fin 2) * 25000 ≤ (i 0).val ∧ (i 0).val < win2_2.index ⟨(i 0).val / 25000, hN⟩ (0 : Fin 2) * 25000 + 25000
    rw [e4]; show (i 0).val / 25000 * 25000 ≤ (i 0).val ∧ (i 0).val < (i 0).val / 25000 * 25000 + 25000; omega
  | ⟨1, _⟩ =>
    show win2_2.index ⟨(i 0).val / 25000, hN⟩ (1 : Fin 2) * 7 ≤ (i 1).val ∧ (i 1).val < win2_2.index ⟨(i 0).val / 25000, hN⟩ (1 : Fin 2) * 7 + 7
    rw [e5]; omega

/-- THE ARRAY the third region leaves: the log-softmax of the rows of the array it found as Z plus the bias row. -/
theorem array_eq (c : Dev nD) (z : (⟨S100000x7, .f32⟩ : BufTy).Contents (Elt Ideal)) (b : (⟨S7, .f32⟩ : BufTy).Contents (Elt Ideal))
    (hzv : V c main_v60 = z) (hb : ∀ k : Fin 7, V c main_v61 (ix2 (0 : Fin 1) k) = b (ix1 k)) :
    (dat2 V c).arrAt 2 cfg2.N = logSoftmax (F := Ideal) (biased (F := Ideal) z b) :=
  (dat2 V c).arrAt_eq_of_cover 2 (logSoftmax (F := Ideal) (biased (F := Ideal) z b)) (fun t _ => flushed_eq V c z b hzv hb t) cover

end Cert.Gcn.Region2

end
-- ==== Proof.LibPlainOps.lean ====
/-
  An operation of an outlined function is a plain operation.

  The small functions a traced program outlines (where, round, clip, pad, …) name each buffer by a reference that
  carries the tensor type of the value it holds, and read and write the buffer's contents through a transport along the
  equation "the buffer's type is that type". When the carried type IS the reference's own type — which is what a call
  site builds, the equation being `rfl` — both transports are the identity, and the operation is the plain operation at
  the same buffers with the same function.

  Rewriting by these equations BEFORE the operations' results are composed keeps every value a plain term of the
  arguments. That matters next to a reduction over many elements: a transport left above such a term makes a later
  definitional comparison unfold the other side first, down to pointwise float comparisons, which evaluate the reduction.
  Here each side of each equation is a single operation, so `rfl` costs nothing.
-/
import Idealize.ShloMosaic.Lib.StableHlo

namespace Cert.PlainOps

open Idealize.ShloMosaic Idealize.ShloMosaic.StableHlo

variable {sig : RefSig} {τ : Topo} {Val : EltTy → Type}

/-- A one-operand operation of an outlined function, at references whose carried types are their own, is the plain
    one-operand operation. -/
theorem tunary_eq (a y : Ref sig .tc) (ha : a.ty = a.ty) (ha2 : a.space ≠ .host) (ha3 : a.isScoped = false)
    (hy : y.ty = y.ty) (hy2 : y.space ≠ .host) (hy3 : y.isScoped = false)
    (f : a.ty.Contents Val → y.ty.Contents Val) :
    (TRef.unary (τ := τ) (TRef.of a ha ha2 ha3) (TRef.of y hy hy2 hy3) f : HloOp τ sig Val)
      = StableHlo.unary a y f (TRef.of a ha ha2 ha3).dev (TRef.of y hy hy2 hy3).dev := rfl

/-- The same for a two-operand operation. -/
theorem tbinary_eq (a b y : Ref sig .tc) (ha : a.ty = a.ty) (ha2 : a.space ≠ .host) (ha3 : a.isScoped = false)
    (hb : b.ty = b.ty) (hb2 : b.space ≠ .host) (hb3 : b.isScoped = false)
    (hy : y.ty = y.ty) (hy2 : y.space ≠ .host) (hy3 : y.isScoped = false)
    (f : a.ty.Contents Val → b.ty.Contents Val → y.ty.Contents Val) :
    (TRef.binary (τ := τ) (TRef.of a ha ha2 ha3) (TRef.of b hb hb2 hb3) (TRef.of y hy hy2 hy3) f : HloOp τ sig Val)
      = StableHlo.binary a b y f (TRef.of a ha ha2 ha3).dev (TRef.of b hb hb2 hb3).dev (TRef.of y hy hy2 hy3).dev := rfl

/-- The same for a three-operand operation (a select: the condition first). -/
theorem tternary_eq (c a b y : Ref sig .tc) (hc : c.ty = c.ty) (hc2 : c.space ≠ .host) (hc3 : c.isScoped = false)
    (ha : a.ty = a.ty) (ha2 : a.space ≠ .host) (ha3 : a.isScoped = false)
    (hb : b.ty = b.ty) (hb2 : b.space ≠ .host) (hb3 : b.isScoped = false)
    (hy : y.ty = y.ty) (hy2 : y.space ≠ .host) (hy3 : y.isScoped = false)
    (f : c.ty.Contents Val → a.ty.Contents Val → b.ty.Contents Val → y.ty.Contents Val) :
    (TRef.ternary (τ := τ) (TRef.of c hc hc2 hc3) (TRef.of a ha ha2 ha3) (TRef.of b hb hb2 hb3) (TRef.of y hy hy2 hy3) f :
        HloOp τ sig Val)
      = StableHlo.ternary c a b y f (TRef.of c hc hc2 hc3).dev (TRef.of a ha ha2 ha3).dev (TRef.of b hb hb2 hb3).dev
          (TRef.of y hy hy2 hy3).dev := rfl

/-- The same for an operation with no operand (a constant). -/
theorem tnullary_eq (y : Ref sig .tc) (hy : y.ty = y.ty) (hy2 : y.space ≠ .host) (hy3 : y.isScoped = false)
    (v : y.ty.Contents Val) :
    (TRef.nullary (τ := τ) (TRef.of y hy hy2 hy3) v : HloOp τ sig Val)
      = StableHlo.nullary y v (TRef.of y hy hy2 hy3).dev := rfl

end Cert.PlainOps
-- ==== Proof.Chain.lean ====
/-
  The kernel program's result array, followed through @main.

  @main alternates stretches of host operations with the three kernel regions. The contents of the TensorCore's
  buffers at each boundary are a fold from the launch memory: a host stretch applies its operations, a region
  replaces its arrays by what its write-backs leave. Read along that fold:
    * the first stretch computes, from the edge list alone, the source and target index vectors (the edges followed
      by one self-loop per node) and the edge weights  dinv[source] · dinv[target]  — the same operations, in the
      same order, as the reference's;
    * region 1 leaves the whole product X·W1 (stage 1);
    * the next stretch gathers its rows by source, scales them by the edge weights and adds them into the target
      rows — the reference's operations again — and lays the first bias out as a [1, 16] row;
    * region 2 leaves stage 2 of those aggregated rows; the next stretch passes messages again and lays out the second
      bias; region 3 leaves the log-softmax of the aggregated rows plus the bias.
  Nothing between its definition and its uses overwrites an index vector, the weights, or an argument. So the result
  array is the reference's own staged value of the six arguments.
-/
import proofs.«108308_j7086696038552_1_alg».proof.Proof.Gen.KernelIdeal.Frame
import proofs.«108308_j7086696038552_1_alg».proof.Proof.RefRead
import proofs.«108308_j7086696038552_1_alg».proof.Proof.RefStages
import proofs.«108308_j7086696038552_1_alg».proof.Proof.Spec
import proofs.«108308_j7086696038552_1_alg».proof.Proof.Region0
import proofs.«108308_j7086696038552_1_alg».proof.Proof.Region1
import proofs.«108308_j7086696038552_1_alg».proof.Proof.Region2
import proofs.«108308_j7086696038552_1_alg».proof.Proof.LibPlainOps
import proofs.«108308_j7086696038552_1_alg».proof.Proof.LibBiasRow
import Idealize.ShloMosaic.Lib.StableHlo.Run

set_option maxRecDepth 16384

noncomputable section

namespace Cert.Gcn.Chain

open Idealize.ShloMosaic Idealize.ShloMosaic.ValueIdx Idealize.ShloMosaic.TcCoe Idealize.SL.Sem Idealize.ShloMosaic.StableHlo
open Cert.KernelIdeal Cert.KernelIdeal.Gen
open Cert.ReferenceIdeal.ReadP (val_main_v3 val_main_v6 val_main_v31 val_main_v32 val_main_v45 val_main_v50 val_main_v63 val_main_v67)

variable (m : (ℓ : Loc nD τ sig) → Buf (Elt Ideal) ℓ) (ρ : Dev nD → PrngReg) (c : Dev nD)

/-- A stretch of host operations leaves a buffer none of them writes as it was. -/
local macro "unwritten " ops:ident : tactic => `(tactic| exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

/-! ## The arguments at the first region's entry -/

/-- Argument 0 is as launched when the first region is entered: no host operation before it writes an argument. -/
theorem W3_arg0 : W3 m ρ c (Proc.devRef .tc main_arg0) = m ((c : Thread nD τ).loc main_arg0) :=
  calc W3 m ρ c (Proc.devRef .tc main_arg0)
    _ = W2 m ρ c (Proc.devRef .tc main_arg0) := by unwritten hostOps0_2
    _ = W1 m ρ c (Proc.devRef .tc main_arg0) := by unwritten hostOps0_1
    _ = W0 m ρ c (Proc.devRef .tc main_arg0) := by unwritten hostOps0
    _ = m ((c : Thread nD τ).loc main_arg0) := rfl

/-- Argument 2 is as launched when the first region is entered: no host operation before it writes an argument. -/
theorem W3_arg2 : W3 m ρ c (Proc.devRef .tc main_arg2) = m ((c : Thread nD τ).loc main_arg2) :=
  calc W3 m ρ c (Proc.devRef .tc main_arg2)
    _ = W2 m ρ c (Proc.devRef .tc main_arg2) := by unwritten hostOps0_2
    _ = W1 m ρ c (Proc.devRef .tc main_arg2) := by unwritten hostOps0_1
    _ = W0 m ρ c (Proc.devRef .tc main_arg2) := by unwritten hostOps0
    _ = m ((c : Thread nD τ).loc main_arg2) := rfl

/-- Argument 3 is as launched when the first region is entered: no host operation before it writes an argument. -/
theorem W3_arg3 : W3 m ρ c (Proc.devRef .tc main_arg3) = m ((c : Thread nD τ).loc main_arg3) :=
  calc W3 m ρ c (Proc.devRef .tc main_arg3)
    _ = W2 m ρ c (Proc.devRef .tc main_arg3) := by unwritten hostOps0_2
    _ = W1 m ρ c (Proc.devRef .tc main_arg3) := by unwritten hostOps0_1
    _ = W0 m ρ c (Proc.devRef .tc main_arg3) := by unwritten hostOps0
    _ = m ((c : Thread nD τ).loc main_arg3) := rfl

/-- Argument 4 is as launched when the first region is entered: no host operation before it writes an argument. -/
theorem W3_arg4 : W3 m ρ c (Proc.devRef .tc main_arg4) = m ((c : Thread nD τ).loc main_arg4) :=
  calc W3 m ρ c (Proc.devRef .tc main_arg4)
    _ = W2 m ρ c (Proc.devRef .tc main_arg4) := by unwritten hostOps0_2
    _ = W1 m ρ c (Proc.devRef .tc main_arg4) := by unwritten hostOps0_1
    _ = W0 m ρ c (Proc.devRef .tc main_arg4) := by unwritten hostOps0
    _ = m ((c : Thread nD τ).loc main_arg4) := rfl

/-- Argument 5 is as launched when the first region is entered: no host operation before it writes an argument. -/
theorem W3_arg5 : W3 m ρ c (Proc.devRef .tc main_arg5) = m ((c : Thread nD τ).loc main_arg5) :=
  calc W3 m ρ c (Proc.devRef .tc main_arg5)
    _ = W2 m ρ c (Proc.devRef .tc main_arg5) := by unwritten hostOps0_2
    _ = W1 m ρ c (Proc.devRef .tc main_arg5) := by unwritten hostOps0_1
    _ = W0 m ρ c (Proc.devRef .tc main_arg5) := by unwritten hostOps0
    _ = m ((c : Thread nD τ).loc main_arg5) := rfl

/-! ## The index vectors and the edge weights: the first stretch is the reference's, operation for operation -/

theorem W3_v3 : W3 m ρ c (Proc.devRef .tc main_v3) = val_main_v3 (F := Ideal) (m ((c : Thread nD τ).loc main_arg1)) := by
  show StableHlo.after hostOps0_2 (StableHlo.after hostOps0_1 (StableHlo.after hostOps0 (W0 m ρ c))) (Proc.devRef .tc main_v3) = _
  simp only [hostOps0, hostOps0_1, hostOps0_2, Cert.PlainOps.tunary_eq, Cert.PlainOps.tternary_eq]
  after_results
  rfl

theorem W3_v6 : W3 m ρ c (Proc.devRef .tc main_v6) = val_main_v6 (F := Ideal) (m ((c : Thread nD τ).loc main_arg1)) := by
  show StableHlo.after hostOps0_2 (StableHlo.after hostOps0_1 (StableHlo.after hostOps0 (W0 m ρ c))) (Proc.devRef .tc main_v6) = _
  simp only [hostOps0, hostOps0_1, hostOps0_2, Cert.PlainOps.tunary_eq, Cert.PlainOps.tternary_eq]
  after_results
  rfl

set_option maxHeartbeats 2000000 in
theorem W3_v31 : W3 m ρ c (Proc.devRef .tc main_v31) = val_main_v31 (F := Ideal) (m ((c : Thread nD τ).loc main_arg1)) := by
  show StableHlo.after hostOps0_2 (StableHlo.after hostOps0_1 (StableHlo.after hostOps0 (W0 m ρ c))) (Proc.devRef .tc main_v31) = _
  simp only [hostOps0, hostOps0_1, hostOps0_2, Cert.PlainOps.tunary_eq, Cert.PlainOps.tternary_eq]
  after_results_simp
  rfl

/-! ## They, and the arguments, are still there at every later boundary that reads them -/

theorem W4_v3 : W4 m ρ c (Proc.devRef .tc main_v3) = val_main_v3 (F := Ideal) (m ((c : Thread nD τ).loc main_arg1)) :=
  (W4_of_ne m ρ c main_v3 (by decide)).trans (W3_v3 m ρ c)
theorem W6_v3 : W6 m ρ c (Proc.devRef .tc main_v3) = val_main_v3 (F := Ideal) (m ((c : Thread nD τ).loc main_arg1)) :=
  calc W6 m ρ c (Proc.devRef .tc main_v3)
    _ = W5 m ρ c (Proc.devRef .tc main_v3) := W6_of_ne m ρ c main_v3 (by decide)
    _ = W4 m ρ c (Proc.devRef .tc main_v3) := by unwritten hostOps1
    _ = _ := W4_v3 m ρ c

theorem W4_v6 : W4 m ρ c (Proc.devRef .tc main_v6) = val_main_v6 (F := Ideal) (m ((c : Thread nD τ).loc main_arg1)) :=
  (W4_of_ne m ρ c main_v6 (by decide)).trans (W3_v6 m ρ c)
theorem W6_v6 : W6 m ρ c (Proc.devRef .tc main_v6) = val_main_v6 (F := Ideal) (m ((c : Thread nD τ).loc main_arg1)) :=
  calc W6 m ρ c (Proc.devRef .tc main_v6)
    _ = W5 m ρ c (Proc.devRef .tc main_v6) := W6_of_ne m ρ c main_v6 (by decide)
    _ = W4 m ρ c (Proc.devRef .tc main_v6) := by unwritten hostOps1
    _ = _ := W4_v6 m ρ c

theorem W4_v31 : W4 m ρ c (Proc.devRef .tc main_v31) = val_main_v31 (F := Ideal) (m ((c : Thread nD τ).loc main_arg1)) :=
  (W4_of_ne m ρ c main_v31 (by decide)).trans (W3_v31 m ρ c)
theorem W6_v31 : W6 m ρ c (Proc.devRef .tc main_v31) = val_main_v31 (F := Ideal) (m ((c : Thread nD τ).loc main_arg1)) :=
  calc W6 m ρ c (Proc.devRef .tc main_v31)
    _ = W5 m ρ c (Proc.devRef .tc main_v31) := W6_of_ne m ρ c main_v31 (by decide)
    _ = W4 m ρ c (Proc.devRef .tc main_v31) := by unwritten hostOps1
    _ = _ := W4_v31 m ρ c

theorem W4_arg3 : W4 m ρ c (Proc.devRef .tc main_arg3) = m ((c : Thread nD τ).loc main_arg3) :=
  (W4_of_ne m ρ c main_arg3 (by decide)).trans (W3_arg3 m ρ c)

theorem W5_arg4 : W5 m ρ c (Proc.devRef .tc main_arg4) = m ((c : Thread nD τ).loc main_arg4) :=
  calc W5 m ρ c (Proc.devRef .tc main_arg4)
    _ = W4 m ρ c (Proc.devRef .tc main_arg4) := by unwritten hostOps1
    _ = W3 m ρ c (Proc.devRef .tc main_arg4) := W4_of_ne m ρ c main_arg4 (by decide)
    _ = _ := W3_arg4 m ρ c

theorem W6_arg5 : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := by unwritten hostOps1
    _ = W3 m ρ c (Proc.devRef .tc main_arg5) := W4_of_ne m ρ c main_arg5 (by decide)
    _ = _ := W3_arg5 m ρ c

/-! ## Layer 1 -/

/-- Region 1 leaves the reference's first transform. -/
theorem W4_v32 : W4 m ρ c (Proc.devRef .tc main_v32) = val_main_v32 (F := Ideal) (m ((c : Thread nD τ).loc main_arg0)) (m ((c : Thread nD τ).loc main_arg2)) :=
  (W4_arr m ρ c 2).trans ((Region0.array_eq (V3 m ρ) c _ _ (W3_arg0 m ρ c) (W3_arg2 m ρ c)).trans
    (RefStages.v32_eq (F := Ideal) _ _).symm)

set_option maxHeartbeats 2000000 in
/-- The first message passing: the reference's aggregated rows. -/
theorem W5_v45 : W5 m ρ c (Proc.devRef .tc main_v45) = val_main_v45 (F := Ideal) (m ((c : Thread nD τ).loc main_arg0)) (m ((c : Thread nD τ).loc main_arg1)) (m ((c : Thread nD τ).loc main_arg2)) := by
  show StableHlo.after hostOps1 (W4 m ρ c) (Proc.devRef .tc main_v45) = _
  simp only [hostOps1]
  after_results_simp
  rw [W4_v32 m ρ c, W4_v3 m ρ c, W4_v6 m ρ c, W4_v31 m ρ c]
  rfl

/-- The first bias laid out as a [1, 16] row. -/
theorem W5_v46 (k : Fin 16) : W5 m ρ c (Proc.devRef .tc main_v46) (ix2 (0 : Fin 1) k) = (m ((c : Thread nD τ).loc main_arg3)) (ix1 k) := by
  have e : W5 m ρ c (Proc.devRef .tc main_v46) = shapeCast S1x16 (m ((c : Thread nD τ).loc main_arg3)) shapeCasts_S16_S1x16 := by
    show StableHlo.after hostOps1 (W4 m ρ c) (Proc.devRef .tc main_v46) = _
    simp only [hostOps1]
    after_results
    rw [W4_arg3 m ρ c]
    rfl
  rw [e]
  exact Cert.BiasRow.cast_row_apply shapeCasts_S16_S1x16 _ k

/-! ## Layer 2 -/

/-- Region 2 leaves the reference's second transform. -/
theorem W6_v47 : W6 m ρ c (Proc.devRef .tc main_v47) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W6_arr m ρ c 3).trans ((Region1.array_eq (V5 m ρ) c _ _ _ (W5_v45 m ρ c) (fun k => W5_v46 m ρ c k) (W5_arg4 m ρ c)).trans
    (RefStages.v50_eq (F := Ideal) _ _ _ _ _).symm)

set_option maxHeartbeats 2000000 in
/-- The second message passing: the reference's aggregated rows. -/
theorem W7_v60 : W7 m ρ c (Proc.devRef .tc main_v60) = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps2 (W6 m ρ c) (Proc.devRef .tc main_v60) = _
  simp only [hostOps2]
  after_results_simp
  rw [W6_v47 m ρ c, W6_v3 m ρ c, W6_v6 m ρ c, W6_v31 m ρ c]
  rfl

/-- The second bias laid out as a [1, 7] row. -/
theorem W7_v61 (k : Fin 7) : W7 m ρ c (Proc.devRef .tc main_v61) (ix2 (0 : Fin 1) k) = (m ((c : Thread nD τ).loc main_arg5)) (ix1 k) := by
  have e : W7 m ρ c (Proc.devRef .tc main_v61) = shapeCast S1x7 (m ((c : Thread nD τ).loc main_arg5)) shapeCasts_S7_S1x7 := by
    show StableHlo.after hostOps2 (W6 m ρ c) (Proc.devRef .tc main_v61) = _
    simp only [hostOps2]
    after_results
    rw [W6_arg5 m ρ c]
    rfl
  rw [e]
  exact Cert.BiasRow.cast_row_apply shapeCasts_S7_S1x7 _ k

/-! ## The result -/

/-- THE RESULT ARRAY at the last boundary is the reference's staged value of the six arguments. -/
theorem result_eq : W8 m ρ c (Proc.devRef .tc main_v62)
    = val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W8_arr m ρ c 2).trans ((Region2.array_eq (V7 m ρ) c _ _ (W7_v60 m ρ c) (fun k => W7_v61 m ρ c k)).trans
    (RefStages.v67_eq (F := Ideal) _ _ _ _ _ _).symm)

end Cert.Gcn.Chain

end
-- ==== Proof.lean ====
/-
  A two-layer graph convolution with a log-softmax output, its dense stages computed by three TensorCore kernels,
  against the same network written with whole-array operations.

  Both programs build, from the edge list alone, the source and target index vectors (every edge, then a self-loop per
  node) and the symmetric edge weights, and both pass messages the same way (gather the source rows, scale, add into
  the target rows). They differ only in the three dense stages between the message-passing steps, which the kernel
  program computes in blocks of 25000 rows:
    * X·W1: a block's product into a zero accumulator is, entry by entry, the same sum over the three features as the
      whole general product (Proof/Region0.lean);
    * max(Z + b1, 0)·W2: the bias row stretched over the block's rows, the rectifier, the same sum over sixteen features
      (Proof/Region1.lean);
    * log-softmax of Z + b2: the row maximum folded from −∞ — the reference takes the maximum with −∞ once more, which
      changes nothing —, the shifted exponentials summed, the logarithm subtracted (Proof/Region2.lean).
  Each block's result is the block of ONE whole-array function, and the four blocks tile the 100000 rows, so each region
  leaves that function of what it found (Proof/Spec.lean has the three functions and their entries on the extended reals).
  Followed through @main (Proof/Chain.lean), the kernel program's result array is the reference's own staged value of
  the six arguments; the reference's run ends at that value too. No law used needs finite inputs.
  The frames of the two kernel programs are the generated ones; the reference's is its run with the result dropped;
  the idealization rewrote nothing, so `preserves` is trivial.
-/
import proofs.«108308_j7086696038552_1_alg».proof.Defs
import proofs.«108308_j7086696038552_1_alg».proof.Proof.Gen.Kernel
import proofs.«108308_j7086696038552_1_alg».proof.Proof.Gen.Kernel.Frame
import proofs.«108308_j7086696038552_1_alg».proof.Proof.Gen.KernelIdeal
import proofs.«108308_j7086696038552_1_alg».proof.Proof.Gen.KernelIdeal.Frame
import proofs.«108308_j7086696038552_1_alg».proof.Proof.Gen.ReferenceIdeal
import proofs.«108308_j7086696038552_1_alg».proof.Proof.Gen.Pre_finite_inputs
import proofs.«108308_j7086696038552_1_alg».proof.Proof.KRun
import proofs.«108308_j7086696038552_1_alg».proof.Proof.RefRun
import proofs.«108308_j7086696038552_1_alg».proof.Proof.RefRead
import proofs.«108308_j7086696038552_1_alg».proof.Proof.Chain
import Idealize.ShloMosaic.Adequacy
import Idealize.ShloMosaic.Init

set_option maxRecDepth 16384

noncomputable section

namespace Cert.Proof

open Idealize.ShloMosaic Idealize.SL.Sem

/-- The kernel program at the word level runs and leaves its arguments. -/
theorem frame_k : Cert.frame_Kernel := fun m ρ _ => Cert.Kernel.Gen.frame m ρ

/-- The idealized kernel program runs and leaves its arguments. -/
theorem frame_ki : Cert.frame_KernelIdeal := fun m ρ _ => Cert.KernelIdeal.Gen.frame m ρ

/-- The idealized reference runs and leaves its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs end with the same result array: the reference's staged value
    of the six arguments. -/
theorem algebraic : Cert.algebraic_KernelIdeal_ReferenceIdeal := by
  intro m ρ m' ρ' _ hagree
  refine ⟨fun c => Cert.ReferenceIdeal.ReadP.val_main_v67 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.Gcn.Chain.result_eq m ρ c), (h c).2⟩)
      (Cert.KernelIdeal.RunNamed.run_named (F := Ideal) m ρ)
  · refine (θ_run Cert.ReferenceIdeal.defs _ _).mono (fun r h c => ⟨?_, (h c).2⟩)
      (Cert.ReferenceIdeal.ValueP.run (F := Ideal) m' ρ')
    rw [(h c).1, Cert.ReferenceIdeal.ReadP.val_main_v67_eq, (hagree c).1, (hagree c).2.1, (hagree c).2.2.1,
      (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
